-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S4096x64 : Shape := ⟨2, ![4096, 64]⟩
abbrev S16384x8 : Shape := ⟨2, ![16384, 8]⟩
abbrev S16384x8x8 : Shape := ⟨3, ![16384, 8, 8]⟩
abbrev S_ : Shape := ⟨0, ![]⟩

class Facts : Prop where
  bcast_S16384x8_S16384x8x8_0_1 : S16384x8.BroadcastsInDim S16384x8x8 (![0, 1] : Fin 2 → Fin S16384x8x8.rank)
  bcast_S16384x8_S16384x8x8_0_2 : S16384x8.BroadcastsInDim S16384x8x8 (![0, 2] : Fin 2 → Fin S16384x8x8.rank)
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S16384x8 : S_.BroadcastsInDim S16384x8 (![] : Fin 0 → Fin S16384x8.rank)
  reducesTo_S16384x8_S_d0_1 : S16384x8.ReducesTo [0, 1] S_
  reducesTo_S16384x8x8_S_d0_1_2 : S16384x8x8.ReducesTo [0, 1, 2] S_

variable [Facts]

def fn_part2 {F : FTy → Type} [FloatOps F] (main_v30 : IVec S_ 1) (main_v34 : IVec S_ 1) : IVec S_ 1 :=
  let main_v35 : IVec S_ 1 := andi main_v30 main_v34
  main_v35

def fn_part1 {F : FTy → Type} [FloatOps F] (main_arg3 : FVec F S16384x8 .f32) (main_arg4 : IVec S16384x8 32) (main_v0 : IVec S16384x8x8 32) (main_v1 : IVec S16384x8x8 32) (main_v2 : IVec S16384x8x8 32) (main_v3 : IVec S16384x8x8 32) (main_v17 : IVec S_ 1) : IVec S_ 1 :=
  let main_v18 : FVec F S16384x8 .f32 := Host.absf main_arg3
  let main_cst_4 : FVec F S_ .f32 := constant S_ .f32 0x7F800000#32
  let main_v19 : FVec F S16384x8 .f32 := broadcastInDim S16384x8 ![] bcast_S_S16384x8 main_cst_4
  let main_v20 : IVec S16384x8 1 := cmpf .olt main_v18 main_v19
  let main_c_5 : IVec S_ 1 := constantI S_ 1 1#1
  let main_v21 : IVec S_ 1 := (fun x v => Host.reduce IntOp.andi x v reducesTo_S16384x8_S_d0_1 h_S_) main_v20 main_c_5
  let main_v22 : IVec S_ 1 := andi main_v17 main_v21
  let main_c_6 : IVec S_ 32 := constantI S_ 32 0#32
  let main_v23 : IVec S16384x8 32 := broadcastInDim S16384x8 ![] bcast_S_S16384x8 main_c_6
  let main_v24 : IVec S16384x8 1 := cmpi .sge main_arg4 main_v23
  let main_c_7 : IVec S_ 1 := constantI S_ 1 1#1
  let main_v25 : IVec S_ 1 := (fun x v => Host.reduce IntOp.andi x v reducesTo_S16384x8_S_d0_1 h_S_) main_v24 main_c_7
  let main_v26 : IVec S_ 1 := andi main_v22 main_v25
  let main_c_8 : IVec S_ 32 := constantI S_ 32 64#32
  let main_v27 : IVec S16384x8 32 := broadcastInDim S16384x8 ![] bcast_S_S16384x8 main_c_8
  let main_v28 : IVec S16384x8 1 := cmpi .slt main_arg4 main_v27
  let main_c_9 : IVec S_ 1 := constantI S_ 1 1#1
  let main_v29 : IVec S_ 1 := (fun x v => Host.reduce IntOp.andi x v reducesTo_S16384x8_S_d0_1 h_S_) main_v28 main_c_9
  let main_v30 : IVec S_ 1 := andi main_v26 main_v29
  let main_v31 : IVec S16384x8x8 1 := cmpi .ne main_v0 main_v1
  let main_v32 : IVec S16384x8x8 1 := cmpi .eq main_v2 main_v3
  let main_v33 : IVec S16384x8x8 1 := ori main_v31 main_v32
  let main_c_10 : IVec S_ 1 := constantI S_ 1 1#1
  let main_v34 : IVec S_ 1 := (fun x v => Host.reduce IntOp.andi x v reducesTo_S16384x8x8_S_d0_1_2 h_S_) main_v33 main_c_10
  fn_part2 (F := F) main_v30 main_v34

def fn {F : FTy → Type} [FloatOps F] (main_arg0 : FVec F S16384x4096 .f32) (main_arg1 : FVec F S64x4096 .f32) (main_arg2 : FVec F S4096x64 .f32) (main_arg3 : FVec F S16384x8 .f32) (main_arg4 : IVec S16384x8 32) : IVec S_ 1 :=
  let main_v0 : IVec S16384x8x8 32 := broadcastInDim S16384x8x8 ![0, 1] bcast_S16384x8_S16384x8x8_0_1 main_arg4
  let main_v1 : IVec S16384x8x8 32 := broadcastInDim S16384x8x8 ![0, 2] bcast_S16384x8_S16384x8x8_0_2 main_arg4
  let main_v2 : IVec S16384x8x8 32 := iotaInDim S16384x8x8 32 1
  let main_v3 : IVec S16384x8x8 32 := iotaInDim S16384x8x8 32 2
  let main_v4 : FVec F S16384x4096 .f32 := Host.absf main_arg0
  let main_cst : FVec F S_ .f32 := constant S_ .f32 0x7F800000#32
  let main_v5 : FVec F S16384x4096 .f32 := broadcastInDim S16384x4096 ![] bcast_S_S16384x4096 main_cst
  let main_v6 : IVec S16384x4096 1 := cmpf .olt main_v4 main_v5
  let main_c : IVec S_ 1 := constantI S_ 1 1#1
  let main_v7 : IVec S_ 1 := (fun x v => Host.reduce IntOp.andi x v reducesTo_S16384x4096_S_d0_1 h_S_) main_v6 main_c
  let main_v8 : FVec F S64x4096 .f32 := Host.absf main_arg1
  let main_cst_0 : FVec F S_ .f32 := constant S_ .f32 0x7F800000#32
  let main_v9 : FVec F S64x4096 .f32 := broadcastInDim S64x4096 ![] bcast_S_S64x4096 main_cst_0
  let main_v10 : IVec S64x4096 1 := cmpf .olt main_v8 main_v9
  let main_c_1 : IVec S_ 1 := constantI S_ 1 1#1
  let main_v11 : IVec S_ 1 := (fun x v => Host.reduce IntOp.andi x v reducesTo_S64x4096_S_d0_1 h_S_) main_v10 main_c_1
  let main_v12 : IVec S_ 1 := andi main_v7 main_v11
  let main_v13 : FVec F S4096x64 .f32 := Host.absf main_arg2
  let main_cst_2 : FVec F S_ .f32 := constant S_ .f32 0x7F800000#32
  let main_v14 : FVec F S4096x64 .f32 := broadcastInDim S4096x64 ![] bcast_S_S4096x64 main_cst_2
  let main_v15 : IVec S4096x64 1 := cmpf .olt main_v13 main_v14
  let main_c_3 : IVec S_ 1 := constantI S_ 1 1#1
  let main_v16 : IVec S_ 1 := (fun x v => Host.reduce IntOp.andi x v reducesTo_S4096x64_S_d0_1 h_S_) main_v15 main_c_3
  let main_v17 : IVec S_ 1 := andi main_v12 main_v16
  fn_part1 (F := F) main_arg3 main_arg4 main_v0 main_v1 main_v2 main_v3 main_v17
-- ==== Kernel.lean ====
abbrev S16384x4096 : Shape := ⟨2, ![16384, 4096]⟩
abbrev S64x4096 : Shape := ⟨2, ![64, 4096]⟩
abbrev S4096x64 : Shape := ⟨2, ![4096, 64]⟩
abbrev S16384x8 : Shape := ⟨2, ![16384, 8]⟩
abbrev S_ : Shape := ⟨0, ![]⟩
abbrev S512x4096 : Shape := ⟨2, ![512, 4096]⟩
abbrev S64x2048 : Shape := ⟨2, ![64, 2048]⟩
abbrev S512x8 : Shape := ⟨2, ![512, 8]⟩
abbrev S512x2048 : Shape := ⟨2, ![512, 2048]⟩
abbrev S512x64 : Shape := ⟨2, ![512, 64]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x8, .f32⟩
  | .hbm, ⟨4, _⟩ => ⟨S16384x8, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16384x8, .i32⟩
  | .hbm, ⟨9, _⟩ => ⟨S16384x8, .i32⟩
  | .hbm, ⟨10, _⟩ => ⟨S_, .i32⟩
  | .hbm, ⟨11, _⟩ => ⟨S16384x8, .i32⟩
  | .hbm, ⟨12, _⟩ => ⟨S16384x8, .i32⟩
  | .hbm, ⟨13, _⟩ => ⟨S4096x64, .f32⟩
  | .hbm, ⟨14, _⟩ => ⟨S4096x64, .bf16⟩
  | .hbm, ⟨15, _⟩ => ⟨S64x4096, .f32⟩
  | .hbm, ⟨16, _⟩ => ⟨S64x4096, .bf16⟩
  | .hbm, ⟨17, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S4096x64, .bf16⟩
  | .local _ .vmem, ⟨3, _⟩ => ⟨S64x2048, .bf16⟩
  | .local _ .vmem, ⟨4, _⟩ => ⟨S64x2048, .bf16⟩
  | .local _ .vmem, ⟨5, _⟩ => ⟨S512x8, .i32⟩
  | .local _ .vmem, ⟨6, _⟩ => ⟨S512x8, .i32⟩
  | .local _ .vmem, ⟨7, _⟩ => ⟨S512x8, .f32⟩
  | .local _ .vmem, ⟨8, _⟩ => ⟨S512x8, .f32⟩
  | .local _ .vmem, ⟨9, _⟩ => ⟨S512x2048, .f32⟩
  | .local _ .vmem, ⟨10, _⟩ => ⟨S512x2048, .f32⟩
  | .local _ .vmem, ⟨11, _⟩ => ⟨S512x64, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S16384x8 : S_.BroadcastsInDim S16384x8 (![] : Fin 0 → Fin S16384x8.rank)
  transposes_S64x4096_S4096x64_1_0 : S64x4096.Transposes [1, 0] S4096x64
  bitsLt_bf16_f32 : FTy.bits .bf16 < FTy.bits .f32
  transposes_S4096x64_S64x4096_1_0 : S4096x64.Transposes [1, 0] S64x4096
  inb_S512x4096_S512x4096_0_0 : ∀ a, (![0, 0] : Fin 2 → Nat) a + S512x4096.size a ≤ S512x4096.size a
  h_S512x4096 : 0 < S512x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S512x8_S512x8_0_0 : ∀ a, (![0, 0] : Fin 2 → Nat) a + S512x8.size a ≤ S512x8.size a
  h_S512x8 : 0 < S512x8.numel
  shapeCasts_S512x8_S512x8 : S512x8.ShapeCasts S512x8
  iota_S512x64_d1_w32 : S512x64.Iotas .tc 32 [1]
  slices_S512x8_o0_0_S512x1 : S512x8.Slices ![0, 0] S512x1
  broadcasts_S512x1_S512x64 : S512x1.Broadcasts S512x64
  natLt_1_32 : 1 < 32
  slices_S512x8_o0_1_S512x1 : S512x8.Slices ![0, 1] S512x1
  slices_S512x8_o0_2_S512x1 : S512x8.Slices ![0, 2] S512x1
  slices_S512x8_o0_3_S512x1 : S512x8.Slices ![0, 3] S512x1
  slices_S512x8_o0_4_S512x1 : S512x8.Slices ![0, 4] S512x1
  slices_S512x8_o0_5_S512x1 : S512x8.Slices ![0, 5] S512x1
  slices_S512x8_o0_6_S512x1 : S512x8.Slices ![0, 6] S512x1
  slices_S512x8_o0_7_S512x1 : S512x8.Slices ![0, 7] S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  packedbf16_S512x64_S512x64_0_0 : (Rect.unit (s := S512x64) ![0, 0] S512x64.size inb_S512x64_S512x64_0_0).PackedRows (EltTy.packing .bf16)
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S512x2048_S512x2048_0_0 : ∀ a, (![0, 0] : Fin 2 → Nat) a + S512x2048.size a ≤ S512x2048.size a
  h_S512x2048 : 0 < S512x2048.numel
  dot_S512x4096_S4096x64_S512x64_1_0_0_1_n_n_wf : DotDims.WF S512x4096 S4096x64 S512x64 [1] [0] [0] [1] [] []
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .bf16 = 32 ∨ (Rect.block (s := S4096x64) S4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x4096.size a
  hwx0_2 : ∀ i : grid0.Coords, EltTy.bits .bf16 = 32 ∨ (Rect.block (s := S64x4096) S64x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S16384x8.size a
  hwx0_3 : ∀ i : grid0.Coords, EltTy.bits .i32 = 32 ∨ (Rect.block (s := S16384x8) S512x8.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x8.size a ≤ S16384x8.size a
  hwx0_4 : ∀ i : grid0.Coords, EltTy.bits .f32 = 32 ∨ (Rect.block (s := S16384x8) S512x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S16384x4096.size a
  hwx0_5 : ∀ i : grid0.Coords, EltTy.bits .f32 = 32 ∨ (Rect.block (s := S16384x4096) S512x2048.size (cc0_transform_5 i) (hinb0_5 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S4096x64 : Shape := ⟨2, ![4096, 64]⟩
abbrev S16384x8 : Shape := ⟨2, ![16384, 8]⟩
abbrev S16384x64 : Shape := ⟨2, ![16384, 64]⟩
abbrev S_ : Shape := ⟨0, ![]⟩
abbrev S16384x8x1 : Shape := ⟨3, ![16384, 8, 1]⟩
abbrev S1 : Shape := ⟨1, ![1]⟩
abbrev S1x1x1 : Shape := ⟨3, ![1, 1, 1]⟩
abbrev S16384 : Shape := ⟨1, ![16384]⟩
abbrev S16384x1 : Shape := ⟨2, ![16384, 1]⟩
abbrev S16384x8x2 : Shape := ⟨3, ![16384, 8, 2]⟩

abbrev nBuf : Space → Nat
  | .hbm => 53
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x8, .f32⟩
  | .hbm, ⟨4, _⟩ => ⟨S16384x8, .i32⟩
  | .hbm, ⟨5, _⟩ => ⟨S16384x64, .f32⟩
  | .hbm, ⟨6, _⟩ => ⟨S_, .i32⟩
  | .hbm, ⟨7, _⟩ => ⟨S16384x8, .i32⟩
  | .hbm, ⟨8, _⟩ => ⟨S16384x8, .i1⟩
  | .hbm, ⟨9, _⟩ => ⟨S_, .i32⟩
  | .hbm, ⟨10, _⟩ => ⟨S16384x8, .i32⟩
  | .hbm, ⟨11, _⟩ => ⟨S16384x8, .i32⟩
  | .hbm, ⟨12, _⟩ => ⟨S16384x8, .i32⟩
  | .hbm, ⟨13, _⟩ => ⟨S16384x8x1, .i32⟩
  | .hbm, ⟨14, _⟩ => ⟨S1, .i32⟩
  | .hbm, ⟨15, _⟩ => ⟨S_, .i32⟩
  | .hbm, ⟨16, _⟩ => ⟨S16384x8x1, .i32⟩
  | .hbm, ⟨17, _⟩ => ⟨S16384x8x1, .i1⟩
  | .hbm, ⟨18, _⟩ => ⟨S1x1x1, .i32⟩
  | .hbm, ⟨19, _⟩ => ⟨S16384x8x1, .i32⟩
  | .hbm, ⟨20, _⟩ => ⟨S16384x8x1, .i1⟩
  | .hbm, ⟨21, _⟩ => ⟨S16384x8x1, .i1⟩
  | .hbm, ⟨22, _⟩ => ⟨S_, .i1⟩
  | .hbm, ⟨23, _⟩ => ⟨S16384x8, .i1⟩
  | .hbm, ⟨24, _⟩ => ⟨S16384x8, .f32⟩
  | .hbm, ⟨25, _⟩ => ⟨S_, .f32⟩
  | .hbm, ⟨26, _⟩ => ⟨S16384x8, .f32⟩
  | .hbm, ⟨27, _⟩ => ⟨S16384x8, .f32⟩
  | .hbm, ⟨28, _⟩ => ⟨S16384x8, .f32⟩
  | .hbm, ⟨29, _⟩ => ⟨S16384, .i32⟩
  | .hbm, ⟨30, _⟩ => ⟨S16384x1, .i32⟩
  | .hbm, ⟨31, _⟩ => ⟨S_, .f32⟩
  | .hbm, ⟨32, _⟩ => ⟨S16384x64, .f32⟩
  | .hbm, ⟨33, _⟩ => ⟨S_, .i32⟩
  | .hbm, ⟨34, _⟩ => ⟨S16384x1, .i32⟩
  | .hbm, ⟨35, _⟩ => ⟨S16384x1, .i1⟩
  | .hbm, ⟨36, _⟩ => ⟨S_, .i32⟩
  | .hbm, ⟨37, _⟩ => ⟨S16384x1, .i32⟩
  | .hbm, ⟨38, _⟩ => ⟨S16384x1, .i32⟩
  | .hbm, ⟨39, _⟩ => ⟨S16384x1, .i32⟩
  | .hbm, ⟨40, _⟩ => ⟨S_, .i32⟩
  | .hbm, ⟨41, _⟩ => ⟨S16384x8, .i32⟩
  | .hbm, ⟨42, _⟩ => ⟨S16384x8, .i1⟩
  | .hbm, ⟨43, _⟩ => ⟨S_, .i32⟩
  | .hbm, ⟨44, _⟩ => ⟨S16384x8, .i32⟩
  | .hbm, ⟨45, _⟩ => ⟨S16384x8, .i32⟩
  | .hbm, ⟨46, _⟩ => ⟨S16384x8, .i32⟩
  | .hbm, ⟨47, _⟩ => ⟨S16384x8, .i32⟩
  | .hbm, ⟨48, _⟩ => ⟨S16384x8x1, .i32⟩
  | .hbm, ⟨49, _⟩ => ⟨S16384x8x1, .i32⟩
  | .hbm, ⟨50, _⟩ => ⟨S16384x8x2, .i32⟩
  | .hbm, ⟨51, _⟩ => ⟨S16384x64, .f32⟩
  | .hbm, ⟨52, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_c : Ref sig .tc := ⟨.hbm, 33, rfl⟩
abbrev main_v6 : Ref sig .tc := ⟨.hbm, 34, rfl⟩
abbrev main_v7 : Ref sig .tc := ⟨.hbm, 35, rfl⟩
abbrev main_c_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_1 : Ref sig .tc := ⟨.hbm, 40, rfl⟩
abbrev main_v11 : Ref sig .tc := ⟨.hbm, 41, rfl⟩
abbrev main_v12 : Ref sig .tc := ⟨.hbm, 42, rfl⟩
abbrev main_c_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  bcast_S_S16384x8 : S_.BroadcastsInDim S16384x8 (![] : Fin 0 → Fin S16384x8.rank)
  shapeCasts_S16384x8_S16384x8x1 : S16384x8.ShapeCasts S16384x8x1
  bcast_S_S16384x8x1 : S_.BroadcastsInDim S16384x8x1 (![] : Fin 0 → Fin S16384x8x1.rank)
  bcast_S1_S1x1x1_2 : S1.BroadcastsInDim S1x1x1 (![2] : Fin 1 → Fin S1x1x1.rank)
  bcast_S1x1x1_S16384x8x1_0_1_2 : S1x1x1.BroadcastsInDim S16384x8x1 (![0, 1, 2] : Fin 3 → Fin S16384x8x1.rank)
  reducesTo_S16384x8x1_S16384x8_d2 : S16384x8x1.ReducesTo [2] S16384x8
  h_S_ : 0 < S_.numel
  bcast_S16384_S16384x1_0 : S16384.BroadcastsInDim S16384x1 (![0] : Fin 1 → Fin S16384x1.rank)
  bcast_S_S16384x64 : S_.BroadcastsInDim S16384x64 (![] : Fin 0 → Fin S16384x64.rank)
  bcast_S_S16384x1 : S_.BroadcastsInDim S16384x1 (![] : Fin 0 → Fin S16384x1.rank)
  bcast_S16384x1_S16384x8_0_1 : S16384x1.BroadcastsInDim S16384x8 (![0, 1] : Fin 2 → Fin S16384x8.rank)
  bcast_S16384x8_S16384x8x1_0_1 : S16384x8.BroadcastsInDim S16384x8x1 (![0, 1] : Fin 2 → Fin S16384x8x1.rank)
  concatenates_S16384x8x1_S16384x8x1_S16384x8x2_d2 : Shape.Concatenates [S16384x8x1, S16384x8x1] S16384x8x2 2
  dot_S16384x4096_S64x4096_S16384x64_1_1_0_0_n_n_wf : DotDims.WF S16384x4096 S64x4096 S16384x64 [1] [1] [0] [0] [] []
  gather_S16384x64_S16384x8x1_S16384x8_n_1_0_0_1_2_11_wf : GatherDims.WF S16384x64 S16384x8x1 S16384x8 [] [1] [0] [1] [0] 2 ![1, 1]
  scatter_S16384x64_S16384x8x2_S16384x8_n_01_01_2_wf : ScatterDims.WF S16384x64 S16384x8x2 S16384x8 [] [0, 1] [0, 1] 2
  dot_S16384x64_S4096x64_S16384x4096_1_1_0_0_n_n_wf : DotDims.WF S16384x64 S4096x64 S16384x4096 [1] [1] [0] [0] [] []

variable [Facts₀]

def dot_S16384x4096_S64x4096_S16384x64_1_1_0_0_n_n : DotDims S16384x4096 S64x4096 S16384x64 where
  lhsContracting := [1]
  rhsContracting := [1]
  lhsNonContracting := [0]
  rhsNonContracting := [0]
  lhsBatch := []
  rhsBatch := []
  wf := dot_S16384x4096_S64x4096_S16384x64_1_1_0_0_n_n_wf
def gather_S16384x64_S16384x8x1_S16384x8_n_1_0_0_1_2_11 : GatherDims S16384x64 S16384x8x1 S16384x8 where
  offsetDims := []
  collapsedSliceDims := [1]
  operandBatchingDims := [0]
  startIndicesBatchingDims := [0]
  startIndexMap := [1]
  indexVectorDim := 2
  sliceSizes := ![1, 1]
  wf := gather_S16384x64_S16384x8x1_S16384x8_n_1_0_0_1_2_11_wf
def scatter_S16384x64_S16384x8x2_S16384x8_n_01_01_2 : ScatterDims S16384x64 S16384x8x2 S16384x8 where
  updateWindowDims := []
  insertedWindowDims := [0, 1]
  scatterDimsToOperandDims := [0, 1]
  indexVectorDim := 2
  wf := scatter_S16384x64_S16384x8x2_S16384x8_n_01_01_2_wf
def dot_S16384x64_S4096x64_S16384x4096_1_1_0_0_n_n : DotDims S16384x64 S4096x64 S16384x4096 where
  lhsContracting := [1]
  rhsContracting := [1]
  lhsNonContracting := [0]
  rhsNonContracting := [0]
  lhsBatch := []
  rhsBatch := []
  wf := dot_S16384x64_S4096x64_S16384x4096_1_1_0_0_n_n_wf

class Facts : Prop extends Facts₀ where

variable [Facts]
-- ==== Proof.KernelPieces.lean ====
/-
  What one grid point's body leaves behind, as pure terms of the blocks it loads.

  At a point that starts a row tile (second grid coordinate 0) the body fills the carried 512×64 scratch with the routed rows of
  the tile — the down projection of the hidden block times the slot weights built from the index and value blocks — and then
  multiplies that scratch by the point's 64×2048 block of the up weights into the output block. At the other point of the row
  tile it stores nothing into the scratch and multiplies what the point before left there by its own block of the up weights.
-/
import proofs.«407315_j50878182588815_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The routed rows of a tile, from its hidden block `x0`, the down weights `x1`, its index block `x3` and its value block `x4`:
    the body's arithmetic for the scratch as one term. -/
abbrev routedTile (x0 : Vec F S512x4096 .f32) (x1 : Vec F S4096x64 .bf16) (x3 : Vec F S512x8 .i32) (x4 : Vec F S512x8 .f32) :
    FVec F S512x64 .bf16 :=
  k0_pay1 (k0_pay3 x0 x1) (k0_pay4 x3) x4 (iota .tc S512x64 32 [1] iota_S512x64_d1_w32) (k0_pay5 x3 x4) (k0_pay6 x3)

/-- A point that starts a row tile leaves the tile's routed rows in the scratch: its one store covers the scratch whole. -/
theorem scratch_A (c : Dev nD) (i : grid0.Coords) (arg2 : Memref sig .tc .vmem S512x4096 .f32) (harg2 : arg2.IsWhole) (arg3 : Memref sig .tc .vmem S4096x64 .bf16) (harg3 : arg3.IsWhole) (arg4 : Memref sig .tc .vmem S64x2048 .bf16) (harg4 : arg4.IsWhole) (arg5 : Memref sig .tc .vmem S512x8 .i32) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x64 .bf16) (harg8 : arg8.IsWhole) (hc0 : cond0_0 i)
    (x0 : Vec F S512x4096 .f32) (x1 : Vec F S4096x64 .bf16) (x2 : Vec F S64x2048 .bf16) (x3 : Vec F S512x8 .i32) (x4 : Vec F S512x8 .f32) :
    sout0_A_0 c i arg2 harg2 arg3 harg3 arg4 harg4 arg5 harg5 arg6 harg6 arg7 harg7 arg8 harg8 hc0 x0 x1 x2 x3 x4 = routedTile x0 x1 x3 x4 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, harg3.read_unread, harg5.read_unread, harg6.read_unread,
    View.ld_unit_zero (S := S512x4096) hz, View.ld_unit_zero (S := S4096x64) hz, View.ld_unit_zero (S := S512x8) hz]

/-- … and in the output block the product of those routed rows with its block `x2` of the up weights: the scratch it multiplies
    is the one it has just stored, read back whole. -/
theorem out_A (c : Dev nD) (i : grid0.Coords) (arg2 : Memref sig .tc .vmem S512x4096 .f32) (harg2 : arg2.IsWhole) (arg3 : Memref sig .tc .vmem S4096x64 .bf16) (harg3 : arg3.IsWhole) (arg4 : Memref sig .tc .vmem S64x2048 .bf16) (harg4 : arg4.IsWhole) (arg5 : Memref sig .tc .vmem S512x8 .i32) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x64 .bf16) (harg8 : arg8.IsWhole) (hc0 : cond0_0 i)
    (x0 : Vec F S512x4096 .f32) (x1 : Vec F S4096x64 .bf16) (x2 : Vec F S64x2048 .bf16) (x3 : Vec F S512x8 .i32) (x4 : Vec F S512x8 .f32) :
    out0_A_5 c i arg2 harg2 arg3 harg3 arg4 harg4 arg5 harg5 arg6 harg6 arg7 harg7 arg8 harg8 hc0 x0 x1 x2 x3 x4 = k0_pay2 x2 (routedTile x0 x1 x3 x4) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread,
    View.ld_unit_zero (S := S512x4096) hz, View.ld_unit_zero (S := S4096x64) hz, View.ld_unit_zero (S := S512x8) hz,
    View.ld_unit_zero (S := S64x2048) hz, View.readCov_unit_zero (S := S512x64) _ hz]

/-- The other point of a row tile leaves in the output block the product of the scratch `xs0` it found with its block of the up weights. -/
theorem out_B (c : Dev nD) (i : grid0.Coords) (arg2 : Memref sig .tc .vmem S512x4096 .f32) (harg2 : arg2.IsWhole) (arg3 : Memref sig .tc .vmem S4096x64 .bf16) (harg3 : arg3.IsWhole) (arg4 : Memref sig .tc .vmem S64x2048 .bf16) (harg4 : arg4.IsWhole) (arg5 : Memref sig .tc .vmem S512x8 .i32) (harg5 : arg5.IsWhole) (arg6 : Memref sig .tc .vmem S512x8 .f32) (harg6 : arg6.IsWhole) (arg7 : Memref sig .tc .vmem S512x2048 .f32) (harg7 : arg7.IsWhole) (arg8 : Memref sig .tc .vmem S512x64 .bf16) (harg8 : arg8.IsWhole) (hc0 : ¬cond0_0 i)
    (x0 : Vec F S512x4096 .f32) (x1 : Vec F S4096x64 .bf16) (x2 : Vec F S64x2048 .bf16) (x3 : Vec F S512x8 .i32) (x4 : Vec F S512x8 .f32)
    (xs0 : Vec F S512x64 .bf16) :
    out0_B_5 c i arg2 harg2 arg3 harg3 arg4 harg4 arg5 harg5 arg6 harg6 arg7 harg7 arg8 harg8 hc0 x0 x1 x2 x3 x4 xs0 = k0_pay2 x2 xs0 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz]
  simp only [View.readAt_eq_ld, harg4.read_unread, harg8.read_unread,
    View.ld_unit_zero (S := S64x2048) hz, View.ld_unit_zero (S := S512x64) hz]

end Cert.KernelIdeal.Pieces

end
-- ==== Proof.KernelProducts.lean ====
/-
  The body's two matrix products, read at an index over the extended reals: each entry is the plain sum over the contracted axis
  of the products of the two operands' entries (the zero accumulator adds nothing, a change of float format is the identity).
-/
import proofs.«407315_j50878182588815_3_alg».proof.Proof.KernelPieces
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen Cert.KernelIdeal.Pieces

theorem lhs_down_0 (i : S512x64.Idx) (q : dot_S512x4096_S4096x64_S512x64_1_0_0_1_n_n.contr.Idx) : (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhs_down_1 (i : S512x64.Idx) (q : dot_S512x4096_S4096x64_S512x64_1_0_0_1_n_n.contr.Idx) : (dot_S512x4096_S4096x64_S512x64_1_0_0_1_n_n.lhsIdx i q 1).val = (q ⟨0, by decide⟩).val :=
  dot_S512x4096_S4096x64_S512x64_1_0_0_1_n_n.lhsIdx_val_of_single rfl i q
theorem rhs_down_0 (i : S512x64.Idx) (q : dot_S512x4096_S4096x64_S512x64_1_0_0_1_n_n.contr.Idx) : (dot_S512x4096_S4096x64_S512x64_1_0_0_1_n_n.rhsIdx i q 0).val = (q ⟨0, by decide⟩).val :=
  dot_S512x4096_S4096x64_S512x64_1_0_0_1_n_n.rhsIdx_val_of_single rfl i q
theorem rhs_down_1 (i : S512x64.Idx) (q : dot_S512x4096_S4096x64_S512x64_1_0_0_1_n_n.contr.Idx) : (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

theorem lhs_up_0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_up_1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem rhs_up_0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem rhs_up_1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The down projection of a tile: entry (p, r) is the inner product of row `p` of the hidden block with column `r` of the
    (transposed) down weights. -/
theorem down_apply (x0 : Vec Ideal S512x4096 .f32) (x1 : Vec Ideal S4096x64 .bf16) (p : Fin 512) (r : Fin 64) :
    k0_pay3 (F := Ideal) x0 x1 (ix2 p r) = ∑ i : Fin 4096, x0 (ix2 p i) * x1 (ix2 i r) := by
  unfold k0_pay3
  refine (Ideal.matmul_constant_zero_apply dot_S512x4096_S4096x64_S512x64_1_0_0_1_n_n none _ _ (ix2 p r)).trans ?_
  rw [← Equiv.sum_comp (ValueIdx.contrEquiv1 dot_S512x4096_S4096x64_S512x64_1_0_0_1_n_n 4096 rfl rfl).symm]
  refine Finset.sum_congr rfl fun k _ => ?_
  have hk := ValueIdx.contrEquiv1_symm_val dot_S512x4096_S4096x64_S512x64_1_0_0_1_n_n 4096 rfl rfl k
  have el : dot_S512x4096_S4096x64_S512x64_1_0_0_1_n_n.lhsIdx (ix2 p r) ((ValueIdx.contrEquiv1 dot_S512x4096_S4096x64_S512x64_1_0_0_1_n_n 4096 rfl rfl).symm k) = ix2 p k := funext fun a => Fin.ext (by
    match a with
    | ⟨0, _⟩ => exact lhs_down_0 _ _
    | ⟨1, _⟩ => exact (lhs_down_1 _ _).trans hk)
  have er : dot_S512x4096_S4096x64_S512x64_1_0_0_1_n_n.rhsIdx (ix2 p r) ((ValueIdx.contrEquiv1 dot_S512x4096_S4096x64_S512x64_1_0_0_1_n_n 4096 rfl rfl).symm k) = ix2 k r := funext fun a => Fin.ext (by
    match a with
    | ⟨0, _⟩ => exact (rhs_down_0 _ _).trans hk
    | ⟨1, _⟩ => exact rhs_down_1 _ _)
  rw [el, er, shapeCast_self]
  rfl

/-- The up projection of a tile: entry (p, q) is the inner product of row `p` of the scratch with column `q` of the block of
    (transposed) up weights. -/
theorem up_apply (x2 : Vec Ideal S64x2048 .bf16) (xs : Vec Ideal S512x64 .bf16) (p : Fin 512) (q : Fin 2048) :
    k0_pay2 (F := Ideal) x2 xs (ix2 p q) = ∑ r : Fin 64, xs (ix2 p r) * x2 (ix2 r q) := by
  unfold k0_pay2
  refine (Ideal.matmul_constant_zero_apply dot_S512x64_S64x2048_S512x2048_1_0_0_1_n_n none _ _ (ix2 p q)).trans ?_
  rw [← Equiv.sum_comp (ValueIdx.contrEquiv1 dot_S512x64_S64x2048_S512x2048_1_0_0_1_n_n 64 rfl rfl).symm]
  refine Finset.sum_congr rfl fun k _ => ?_
  have hk := ValueIdx.contrEquiv1_symm_val dot_S512x64_S64x2048_S512x2048_1_0_0_1_n_n 64 rfl rfl k
  have el : dot_S512x64_S64x2048_S512x2048_1_0_0_1_n_n.lhsIdx (ix2 p q) ((ValueIdx.contrEquiv1 dot_S512x64_S64x2048_S512x2048_1_0_0_1_n_n 64 rfl rfl).symm k) = ix2 p k := funext fun a => Fin.ext (by
    match a with
    | ⟨0, _⟩ => exact lhs_up_0 _ _
    | ⟨1, _⟩ => exact (lhs_up_1 _ _).trans hk)
  have er : dot_S512x64_S64x2048_S512x2048_1_0_0_1_n_n.rhsIdx (ix2 p q) ((ValueIdx.contrEquiv1 dot_S512x64_S64x2048_S512x2048_1_0_0_1_n_n 64 rfl rfl).symm k) = ix2 k q := funext fun a => Fin.ext (by
    match a with
    | ⟨0, _⟩ => exact (rhs_up_0 _ _).trans hk
    | ⟨1, _⟩ => exact rhs_up_1 _ _)
  rw [el, er, shapeCast_self]

end Cert.KernelIdeal.Payload

end
-- ==== Proof.KernelSlots.lean ====
/-
  The slot weights the body builds, read at an index over the extended reals. For each of the eight top-k positions the body
  compares the slot number (an iota along the 64 slots) with the row's index at that position, turns the bit into 0 or 1, multiplies
  by the row's value at that position, and adds the eight products to zero one after another. At (p, r) the k-th product is the
  value `val[p,k]` when `idx[p,k] = r` and zero otherwise, so the chain is the sum over k of those, and the scratch entry is the down
  projection at (p, r) times that sum.
-/
import proofs.«407315_j50878182588815_3_alg».proof.Proof.KernelProducts
import Idealize.ShloMosaic.Lib.StableHlo.Predicate

noncomputable section

open Idealize.ShloMosaic Idealize.ShloMosaic.TcCoe Idealize.ShloMosaic.ValueIdx

namespace Cert.KernelIdeal.Payload

open Cert.KernelIdeal Cert.KernelIdeal.Gen Cert.KernelIdeal.Pieces

/-- The bit of an equality test, widened and read as a signed integer, is 1 when the words are equal and 0 when not. -/
theorem hot (a b : BitVec 32) :
    (FloatOps.sitofp (F := Ideal) .f32 ((IntOp.cmpi .eq a b).setWidth 32) : EReal) = if b = a then 1 else 0 := by
  by_cases h : a = b
  · rw [StableHlo.Predicate.cmpi_eq_iff.2 h, if_pos h.symm]
    show ((((1#1 : BitVec 1).setWidth 32).toInt : ℝ) : EReal) = 1
    rw [show ((1#1 : BitVec 1).setWidth 32).toInt = 1 from by decide]
    norm_num
  · have hb : IntOp.cmpi .eq a b = 0#1 := eq_zero_of_ne_one fun e => h (StableHlo.Predicate.cmpi_eq_iff.1 e)
    rw [hb, if_neg fun e => h e.symm]
    show ((((0#1 : BitVec 1).setWidth 32).toInt : ℝ) : EReal) = 0
    rw [show ((0#1 : BitVec 1).setWidth 32).toInt = 0 from by decide]
    norm_num

/-- Column `kk` of a 512×8 block, laid along the 64 slots, reads at (p, r) the block's entry (p, kk). -/
theorem col_apply {α : Type} (v : S512x8.Idx → α) (off : Fin 2 → Nat) (hs : S512x8.Slices off S512x1) (kk : Fin 8)
    (hoff : off = ![0, kk.val]) (p : Fin 512) (r : Fin 64) :
    broadcastTo S512x64 (extractStridedSlice S512x1 off v hs) broadcasts_S512x1_S512x64 (ix2 p r) = v (ix2 p kk) := by
  subst hoff
  rw [broadcastTo_apply _ broadcasts_S512x1_S512x64 (ix2 p r) (ix2 p (0 : Fin 1)) (fun a => by
    match a with
    | ⟨0, _⟩ => show p.val = if (512 : Nat) = 1 then 0 else p.val; rw [if_neg (by decide)]
    | ⟨1, _⟩ => show (0 : Nat) = if (1 : Nat) = 1 then 0 else r.val; rw [if_pos rfl])]
  exact extractStridedSlice_apply _ v hs (ix2 p (0 : Fin 1)) (ix2 p kk) (fun a => by
    match a with
    | ⟨0, _⟩ => show p.val = 0 + p.val; omega
    | ⟨1, _⟩ => show kk.val = kk.val + 0; omega)

/-- The one-hot of position `kk` at (p, r): 1 when the row's index at that position is the slot number `r`, else 0. -/
theorem hot_apply (x3 : IVec S512x8 32) (off : Fin 2 → Nat) (hs : S512x8.Slices off S512x1) (kk : Fin 8)
    (hoff : off = ![0, kk.val]) (p : Fin 512) (r : Fin 64) :
    (sitofp .f32 (extui 32 (cmpi .eq (iota .tc S512x64 32 [1] iota_S512x64_d1_w32)
        (broadcastTo S512x64 (extractStridedSlice S512x1 off x3 hs) broadcasts_S512x1_S512x64)) natLt_1_32) : FVec Ideal S512x64 .f32) (ix2 p r)
      = if x3 (ix2 p kk) = BitVec.ofNat 32 r.val then 1 else 0 := by
  have hc := col_apply x3 off hs kk hoff p r
  have hi : (iota .tc S512x64 32 [1] iota_S512x64_d1_w32) (ix2 p r) = BitVec.ofNat 32 r.val :=
    iota_single_apply .tc S512x64 32 1 iota_S512x64_d1_w32 (ix2 p r)
  show FloatOps.sitofp (F := Ideal) .f32 ((IntOp.cmpi .eq ((iota .tc S512x64 32 [1] iota_S512x64_d1_w32) (ix2 p r))
    (broadcastTo S512x64 (extractStridedSlice S512x1 off x3 hs) broadcasts_S512x1_S512x64 (ix2 p r))).setWidth 32) = _
  rw [hi, hc]
  exact hot _ _

/-- The value of position `kk` laid along the slots. -/
theorem val_apply (x4 : FVec Ideal S512x8 .f32) (off : Fin 2 → Nat) (hs : S512x8.Slices off S512x1) (kk : Fin 8)
    (hoff : off = ![0, kk.val]) (p : Fin 512) (r : Fin 64) :
    broadcastTo S512x64 (extractStridedSlice S512x1 off x4 hs) broadcasts_S512x1_S512x64 (ix2 p r) = x4 (ix2 p kk) :=
  col_apply x4 off hs kk hoff p r

/-- THE SCRATCH ENTRY: the down projection at (p, r) times the sum of the row's values whose index names slot `r`. -/
theorem routedTile_apply (x0 : Vec Ideal S512x4096 .f32) (x1 : Vec Ideal S4096x64 .bf16) (x3 : Vec Ideal S512x8 .i32)
    (x4 : Vec Ideal S512x8 .f32) (p : Fin 512) (r : Fin 64) :
    routedTile (F := Ideal) x0 x1 x3 x4 (ix2 p r)
      = (∑ i : Fin 4096, x0 (ix2 p i) * x1 (ix2 i r))
        * ∑ k : Fin 8, if x3 (ix2 p k) = BitVec.ofNat 32 r.val then x4 (ix2 p k) else 0 := by
  unfold routedTile k0_pay1 k0_pay5 k0_pay6 k0_pay4
  simp only [shapeCast_self, truncf_apply, mulf_apply, addf_apply, broadcast_apply, down_apply,
    hot_apply x3 ![0, 0] slices_S512x8_o0_0_S512x1 0 rfl p r,
    hot_apply x3 ![0, 1] slices_S512x8_o0_1_S512x1 1 rfl p r,
    hot_apply x3 ![0, 2] slices_S512x8_o0_2_S512x1 2 rfl p r,
    hot_apply x3 ![0, 3] slices_S512x8_o0_3_S512x1 3 rfl p r,
    hot_apply x3 ![0, 4] slices_S512x8_o0_4_S512x1 4 rfl p r,
    hot_apply x3 ![0, 5] slices_S512x8_o0_5_S512x1 5 rfl p r,
    hot_apply x3 ![0, 6] slices_S512x8_o0_6_S512x1 6 rfl p r,
    hot_apply x3 ![0, 7] slices_S512x8_o0_7_S512x1 7 rfl p r,
    val_apply x4 ![0, 0] slices_S512x8_o0_0_S512x1 0 rfl p r,
    val_apply x4 ![0, 1] slices_S512x8_o0_1_S512x1 1 rfl p r,
    val_apply x4 ![0, 2] slices_S512x8_o0_2_S512x1 2 rfl p r,
    val_apply x4 ![0, 3] slices_S512x8_o0_3_S512x1 3 rfl p r,
    val_apply x4 ![0, 4] slices_S512x8_o0_4_S512x1 4 rfl p r,
    val_apply x4 ![0, 5] slices_S512x8_o0_5_S512x1 5 rfl p r,
    val_apply x4 ![0, 6] slices_S512x8_o0_6_S512x1 6 rfl p r,
    val_apply x4 ![0, 7] slices_S512x8_o0_7_S512x1 7 rfl p r]
  rw [Fin.sum_univ_eight, Ideal.ofBits_def, Ideal.ofBits_zero_f32, zero_add]
  simp only [ite_mul, one_mul, zero_mul]

end Cert.KernelIdeal.Payload

end
-- ==== Proof.Spec.lean ====
/-
  The routed low-rank update, as one function of the five argument arrays, over the extended reals.

  Row `n` of the hidden states is projected down to 64 slots, `down n r = Σ_i h[n,i] · dw[r,i]`. Each row names eight
  slots `idx[n,k]` with weights `val[n,k]`; slot `r` of the row carries the weight `slotWeight n r = Σ_k [idx[n,k] = r] · val[n,k]`
  (at most one term is non-zero when the row's indices are pairwise distinct), the routed row is `down n r · slotWeight n r`,
  and the result projects it up again, `G[n,o] = Σ_r routed n r · uw[o,r]`.

  The two conditions on the index array under which the scatter form (write `down · val` at the named slot of a zeroed row)
  and this sum form agree are stated here as well: every index is a slot number, and a row names no slot twice.
-/
import Idealize.ShloMosaic.PureOps.Ideal
import Idealize.ShloMosaic.Lib.ValueIdx

noncomputable section

namespace Cert.Routed

open Idealize.ShloMosaic Idealize.ShloMosaic.ValueIdx

/-- The shapes of the five arguments and of the 64-slot rows, as literals. -/
abbrev SHid : Shape := ⟨2, ![16384, 4096]⟩
abbrev SDown : Shape := ⟨2, ![64, 4096]⟩
abbrev SUp : Shape := ⟨2, ![4096, 64]⟩
abbrev STop : Shape := ⟨2, ![16384, 8]⟩
abbrev SSlots : Shape := ⟨2, ![16384, 64]⟩

/-- Every index, read as a signed word, is a slot number: it lies in `[0, 64)`. -/
def InRange (idx : STop.Idx → BitVec 32) : Prop := ∀ i : STop.Idx, 0 ≤ (idx i).toInt ∧ (idx i).toInt < 64

/-- A row names no slot twice: its eight indices are pairwise distinct. -/
def RowDistinct (idx : STop.Idx → BitVec 32) : Prop :=
  ∀ (n : Fin 16384) (a b : Fin 8), idx (ix2 n a) = idx (ix2 n b) → a = b

/-- The down projection: slot `r` of row `n` is the row's inner product with row `r` of the down weights. -/
def down (h : SHid.Idx → EReal) (dw : SDown.Idx → EReal) (n : Fin 16384) (r : Fin 64) : EReal :=
  ∑ i : Fin 4096, h (ix2 n i) * dw (ix2 r i)

/-- The weight slot `r` of row `n` carries: the sum of the row's weights whose index names the slot. -/
def slotWeight (val : STop.Idx → EReal) (idx : STop.Idx → BitVec 32) (n : Fin 16384) (r : Fin 64) : EReal :=
  ∑ k : Fin 8, if idx (ix2 n k) = BitVec.ofNat 32 r.val then val (ix2 n k) else 0

/-- The routed row: each slot's projection times the weight the slot carries. -/
def routed (h : SHid.Idx → EReal) (dw : SDown.Idx → EReal) (val : STop.Idx → EReal) (idx : STop.Idx → BitVec 32)
    (n : Fin 16384) (r : Fin 64) : EReal :=
  down h dw n r * slotWeight val idx n r

/-- The result: the routed row projected up, `G[n,o] = Σ_r routed n r · uw[o,r]`. -/
def G (h : SHid.Idx → EReal) (dw : SDown.Idx → EReal) (uw : SUp.Idx → EReal) (val : STop.Idx → EReal)
    (idx : STop.Idx → BitVec 32) : SHid.Idx → EReal :=
  fun i => ∑ r : Fin 64, routed h dw val idx (i 0) r * uw (ix2 (i 1) r)

/-- A word in `[0, 64)` is the word of its own value. -/
theorem InRange.eq_ofNat {idx : STop.Idx → BitVec 32} (hr : InRange idx) (i : STop.Idx) :
    (idx i).toNat < 64 ∧ idx i = BitVec.ofNat 32 (idx i).toNat := by
  obtain ⟨h0, h1⟩ := hr i
  have hc := BitVec.toInt_eq_toNat_cond (idx i)
  have hlt : (idx i).toNat < 2 ^ 32 := (idx i).isLt
  refine ⟨?_, BitVec.eq_of_toNat_eq ?_⟩
  · split at hc <;> omega
  · rw [BitVec.toNat_ofNat, Nat.mod_eq_of_lt hlt]

/-- With distinct indices, a slot some index of the row names carries that index's weight. -/
theorem slotWeight_hit {val : STop.Idx → EReal} {idx : STop.Idx → BitVec 32} (hd : RowDistinct idx)
    (n : Fin 16384) (k : Fin 8) (r : Fin 64) (hk : idx (ix2 n k) = BitVec.ofNat 32 r.val) :
    slotWeight val idx n r = val (ix2 n k) := by
  unfold slotWeight
  rw [Finset.sum_eq_single k]
  · rw [if_pos hk]
  · intro b _ hb
    rw [if_neg]
    intro hb'
    exact hb (hd n b k (hb'.trans hk.symm))
  · intro h; exact absurd (Finset.mem_univ k) h

/-- A slot no index of the row names carries nothing. -/
theorem slotWeight_miss {val : STop.Idx → EReal} {idx : STop.Idx → BitVec 32}
    (n : Fin 16384) (r : Fin 64) (hk : ∀ k : Fin 8, idx (ix2 n k) ≠ BitVec.ofNat 32 r.val) :
    slotWeight val idx n r = 0 := by
  unfold slotWeight
  exact Finset.sum_eq_zero fun k _ => if_neg (hk k)

end Cert.Routed

end
-- ==== Proof.KernelHost.lean ====
/-
  The arrays as the launch finds them. Before its one launch the program transposes the down weights (64×4096 → 4096×64) and the up
  weights (4096×64 → 64×4096), and clamps every index into [0, 63]. Over the extended reals a change of float format is the identity,
  so the staged tables are the plain transposes; and an index that already lies in [0, 64) is left as it is by the clamp.
-/
import proofs.«407315_j50878182588815_3_alg».proof.Proof.Gen.KernelIdeal.Frame
import proofs.«407315_j50878182588815_3_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.ShloMosaic.ValueIdx Idealize.ShloMosaic.StableHlo Idealize.SL.Sem

namespace Cert.KernelIdeal.HostSide

open Cert.KernelIdeal Cert.KernelIdeal.Gen Cert.Routed

variable (m : (ℓ : Loc nD τ sig) → Buf (Elt Ideal) ℓ)

/-- The staged down table is the transpose of the down weights. -/
theorem V_downT (c : Dev nD) :
    @Eq (FVec Ideal S4096x64 .bf16) (V m c main_v2)
      (truncf (F := Ideal) .bf16 (transpose S4096x64 [1, 0] (m ((c : Thread nD τ).loc main_arg1) : FVec Ideal S64x4096 .f32)
        transposes_S64x4096_S4096x64_1_0) bitsLt_bf16_f32) := by
  dsimp only [Gen.V]
  simp only [Gen.hostOps0, Gen.hostOps0_1, Gen.hostOps0_2, List.flatten_cons, List.flatten_nil, List.append_nil, List.cons_append,
    List.nil_append]
  after_results

/-- The staged up table is the transpose of the up weights. -/
theorem V_upT (c : Dev nD) :
    @Eq (FVec Ideal S64x4096 .bf16) (V m c main_v4)
      (truncf (F := Ideal) .bf16 (transpose S64x4096 [1, 0] (m ((c : Thread nD τ).loc main_arg2) : FVec Ideal S4096x64 .f32)
        transposes_S4096x64_S64x4096_1_0) bitsLt_bf16_f32) := by
  dsimp only [Gen.V]
  simp only [Gen.hostOps0, Gen.hostOps0_1, Gen.hostOps0_2, List.flatten_cons, List.flatten_nil, List.append_nil, List.cons_append,
    List.nil_append]
  after_results

/-- The staged index table is the index array clamped into [0, 63]. -/
theorem V_clip (c : Dev nD) :
    @Eq (IVec S16384x8 32) (V m c main_v0)
      (minsi (broadcastInDim S16384x8 ![] bcast_S_S16384x8 (constantI S_ 32 63#32))
          (maxsi (broadcastInDim S16384x8 ![] bcast_S_S16384x8 (constantI S_ 32 0#32)) (m ((c : Thread nD τ).loc main_arg4) : IVec S16384x8 32))) := by
  dsimp only [Gen.V]
  simp only [Gen.hostOps0, Gen.hostOps0_1, Gen.hostOps0_2, List.flatten_cons, List.flatten_nil, List.append_nil, List.cons_append,
    List.nil_append]
  after_results
  rfl

/-- Entry (i, r) of the staged down table is entry (r, i) of the down weights. -/
theorem V_downT_apply (c : Dev nD) (i : Fin 4096) (r : Fin 64) :
    @Eq EReal ((V m c main_v2 : FVec Ideal S4096x64 .bf16) (ix2 i r)) ((m ((c : Thread nD τ).loc main_arg1) : FVec Ideal S64x4096 .f32) (ix2 r i)) := by
  refine (congrFun (V_downT m c) (ix2 i r)).trans ?_
  exact transpose_apply [1, 0] _ transposes_S64x4096_S4096x64_1_0 (ix2 i r) (ix2 r i) (fun b => by
    match b with
    | ⟨0, _⟩ => rfl
    | ⟨1, _⟩ => rfl)

/-- Entry (r, o) of the staged up table is entry (o, r) of the up weights. -/
theorem V_upT_apply (c : Dev nD) (r : Fin 64) (o : Fin 4096) :
    @Eq EReal ((V m c main_v4 : FVec Ideal S64x4096 .bf16) (ix2 r o)) ((m ((c : Thread nD τ).loc main_arg2) : FVec Ideal S4096x64 .f32) (ix2 o r)) := by
  refine (congrFun (V_upT m c) (ix2 r o)).trans ?_
  exact transpose_apply [1, 0] _ transposes_S4096x64_S64x4096_1_0 (ix2 r o) (ix2 o r) (fun b => by
    match b with
    | ⟨0, _⟩ => rfl
    | ⟨1, _⟩ => rfl)

/-- A word in [0, 64) is left as it is by the clamp into [0, 63]. -/
theorem clamp_id (a : BitVec 32) (h0 : 0 ≤ a.toInt) (h1 : a.toInt < 64) : IntOp.minsi 63#32 (IntOp.maxsi 0#32 a) = a := by
  have e0 : (0#32 : BitVec 32).toInt = 0 := by decide
  have e63 : (63#32 : BitVec 32).toInt = 63 := by decide
  have hmax : IntOp.maxsi 0#32 a = a := by
    unfold IntOp.maxsi
    rw [if_neg]
    rw [BitVec.slt, decide_eq_true_eq, e0]; omega
  rw [hmax]
  unfold IntOp.minsi
  rw [if_neg]
  rw [BitVec.slt, decide_eq_true_eq, e63]; omega

/-- Where every index is a slot number, the staged index table is the index array itself. -/
theorem V_clip_apply (c : Dev nD) (hr : InRange (m ((c : Thread nD τ).loc main_arg4))) (i : S16384x8.Idx) :
    @Eq (BitVec 32) ((V m c main_v0 : IVec S16384x8 32) i) ((m ((c : Thread nD τ).loc main_arg4) : IVec S16384x8 32) i) := by
  refine (congrFun (V_clip m c) i).trans ?_
  exact clamp_id _ (hr i).1 (hr i).2

end Cert.KernelIdeal.HostSide

end
-- ==== Proof.KernelBlocks.lean ====
/-
  The blocks a grid point works on, read as entries of the argument arrays. Point `t` of the 32×2 grid works on row tile `t / 2`
  (512 rows) and column tile `t % 2` (2048 columns): its hidden, index and value blocks are rows `512·(t/2) + p` of the arrays, the down
  table is staged whole, and its block of the up table is columns `2048·(t%2) + q`. So the routed rows a tile's first point computes
  are rows of the specification's `routed`, for every point of the tile.
-/
import proofs.«407315_j50878182588815_3_alg».proof.Proof.KernelSlots
import proofs.«407315_j50878182588815_3_alg».proof.Proof.KernelHost

noncomputable section

open Idealize.ShloMosaic Idealize.ShloMosaic.TcCoe Idealize.ShloMosaic.ValueIdx Idealize.SL.Sem

namespace Cert.KernelIdeal.Result

open Cert.KernelIdeal Cert.KernelIdeal.Gen Cert.KernelIdeal.Pieces Cert.KernelIdeal.Payload Cert.KernelIdeal.HostSide Cert.Routed

variable (m : (ℓ : Loc nD τ sig) → Buf (Elt Ideal) ℓ)

/-- The input blocks of point `t`, each at its literal type. -/
abbrev hidBlk (c : Dev nD) (t : Fin cfg0.N) : Vec Ideal S512x4096 .f32 := iblk m c 0 t
abbrev downBlk (c : Dev nD) (t : Fin cfg0.N) : Vec Ideal S4096x64 .bf16 := iblk m c 1 t
abbrev upBlk (c : Dev nD) (t : Fin cfg0.N) : Vec Ideal S64x2048 .bf16 := iblk m c 2 t
abbrev idxBlk (c : Dev nD) (t : Fin cfg0.N) : Vec Ideal S512x8 .i32 := iblk m c 3 t
abbrev valBlk (c : Dev nD) (t : Fin cfg0.N) : Vec Ideal S512x8 .f32 := iblk m c 4 t

/-- The printed index maps, decided once over the 64 points: the row tile is `t / 2`, the column tile `t % 2`. -/
theorem idx_facts : ∀ t : Fin cfg0.N,
    win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 2
    ∧ win0_3.index t (0 : Fin 2) = t.val / 2 ∧ win0_3.index t (1 : Fin 2) = 0
    ∧ win0_4.index t (0 : Fin 2) = t.val / 2 ∧ win0_4.index t (1 : Fin 2) = 0
    ∧ win0_5.index t (0 : Fin 2) = t.val / 2 ∧ win0_5.index t (1 : Fin 2) = t.val % 2 :=
  (by decide +kernel : ∀ t : Fin grid0.N, _)

/-- Row `p` of tile `t / 2`, as a row number of the whole arrays. -/
def rowOf (t : Fin cfg0.N) (p : Fin 512) : Fin 16384 :=
  ⟨t.val / 2 * 512 + p.val, by have ht : t.val < 64 := lt_of_lt_of_eq t.isLt N_0; have := p.isLt; omega⟩

/-- Column `q` of column tile `t % 2`, as a column number of the result. -/
def colOf (t : Fin cfg0.N) (q : Fin 2048) : Fin 4096 :=
  ⟨t.val % 2 * 2048 + q.val, by have := q.isLt; omega⟩

theorem hidBlk_apply (c : Dev nD) (t : Fin cfg0.N) (p : Fin 512) (i : Fin 4096) :
    hidBlk m c t (ix2 p i) = m ((c : Thread nD τ).loc main_arg0) (ix2 (rowOf t p) i) := by
  obtain ⟨e0, e1, -⟩ := idx_facts t
  show V m c main_arg0 (((cfg0.win 0).blk t).view.emb (ix2 p i)) = _
  rw [V_main_arg0]
  refine congrArg _ (funext fun a => Fin.ext ?_)
  match a with
  | ⟨0, _⟩ => show win0_0.index t (0 : Fin 2) * 512 + 1 * p.val = t.val / 2 * 512 + p.val; rw [e0]; omega
  | ⟨1, _⟩ => show win0_0.index t (1 : Fin 2) * 4096 + 1 * i.val = i.val; rw [e1]; omega

theorem downBlk_apply (c : Dev nD) (t : Fin cfg0.N) (i : Fin 4096) (r : Fin 64) :
    downBlk m c t (ix2 i r) = m ((c : Thread nD τ).loc main_arg1) (ix2 r i) := by
  obtain ⟨-, -, e0, e1, -⟩ := idx_facts t
  show (V m c main_v2 : S4096x64.Idx → Elt Ideal .bf16) (((cfg0.win 1).blk t).view.emb (ix2 i r)) = _
  rw [← V_downT_apply m c i r]
  refine congrArg _ (funext fun a => Fin.ext ?_)
  match a with
  | ⟨0, _⟩ => show win0_1.index t (0 : Fin 2) * 4096 + 1 * i.val = i.val; rw [e0]; omega
  | ⟨1, _⟩ => show win0_1.index t (1 : Fin 2) * 64 + 1 * r.val = r.val; rw [e1]; omega

theorem upBlk_apply (c : Dev nD) (t : Fin cfg0.N) (r : Fin 64) (q : Fin 2048) :
    upBlk m c t (ix2 r q) = m ((c : Thread nD τ).loc main_arg2) (ix2 (colOf t q) r) := by
  obtain ⟨-, -, -, -, e0, e1, -⟩ := idx_facts t
  show (V m c main_v4 : S64x4096.Idx → Elt Ideal .bf16) (((cfg0.win 2).blk t).view.emb (ix2 r q)) = _
  rw [← V_upT_apply m c r (colOf t q)]
  refine congrArg _ (funext fun a => Fin.ext ?_)
  match a with
  | ⟨0, _⟩ => show win0_2.index t (0 : Fin 2) * 64 + 1 * r.val = r.val; rw [e0]; omega
  | ⟨1, _⟩ => show win0_2.index t (1 : Fin 2) * 2048 + 1 * q.val = t.val % 2 * 2048 + q.val; rw [e1]; omega

theorem idxBlk_apply (c : Dev nD) (hr : InRange (m ((c : Thread nD τ).loc main_arg4))) (t : Fin cfg0.N) (p : Fin 512) (k : Fin 8) :
    idxBlk m c t (ix2 p k) = m ((c : Thread nD τ).loc main_arg4) (ix2 (rowOf t p) k) := by
  obtain ⟨-, -, -, -, -, -, e0, e1, -⟩ := idx_facts t
  show (V m c main_v0 : IVec S16384x8 32) (((cfg0.win 3).blk t).view.emb (ix2 p k)) = _
  rw [← V_clip_apply m c hr (ix2 (rowOf t p) k)]
  refine congrArg _ (funext fun a => Fin.ext ?_)
  match a with
  | ⟨0, _⟩ => show win0_3.index t (0 : Fin 2) * 512 + 1 * p.val = t.val / 2 * 512 + p.val; rw [e0]; omega
  | ⟨1, _⟩ => show win0_3.index t (1 : Fin 2) * 8 + 1 * k.val = k.val; rw [e1]; omega

theorem valBlk_apply (c : Dev nD) (t : Fin cfg0.N) (p : Fin 512) (k : Fin 8) :
    valBlk m c t (ix2 p k) = m ((c : Thread nD τ).loc main_arg3) (ix2 (rowOf t p) k) := by
  obtain ⟨-, -, -, -, -, -, -, -, e0, e1, -⟩ := idx_facts t
  show V m c main_arg3 (((cfg0.win 4).blk t).view.emb (ix2 p k)) = _
  rw [V_main_arg3]
  refine congrArg _ (funext fun a => Fin.ext ?_)
  match a with
  | ⟨0, _⟩ => show win0_4.index t (0 : Fin 2) * 512 + 1 * p.val = t.val / 2 * 512 + p.val; rw [e0]; omega
  | ⟨1, _⟩ => show win0_4.index t (1 : Fin 2) * 8 + 1 * k.val = k.val; rw [e1]; omega

/-- The routed rows computed from point `t`'s blocks are rows `512·(t/2) + p` of the specification's `routed`. -/
theorem tile_routed (c : Dev nD) (hr : InRange (m ((c : Thread nD τ).loc main_arg4))) (t : Fin cfg0.N) (p : Fin 512) (r : Fin 64) :
    routedTile (F := Ideal) (hidBlk m c t) (downBlk m c t) (idxBlk m c t) (valBlk m c t) (ix2 p r)
      = routed (m ((c : Thread nD τ).loc main_arg0)) (m ((c : Thread nD τ).loc main_arg1)) (m ((c : Thread nD τ).loc main_arg3))
          (m ((c : Thread nD τ).loc main_arg4)) (rowOf t p) r := by
  refine (routedTile_apply (hidBlk m c t) (downBlk m c t) (idxBlk m c t) (valBlk m c t) p r).trans ?_
  unfold routed down slotWeight
  refine congrArg₂ (· * ·) (Finset.sum_congr rfl fun i _ => ?_) (Finset.sum_congr rfl fun k _ => ?_)
  · exact congrArg₂ (· * ·) (hidBlk_apply m c t p i) (downBlk_apply m c t i r)
  · rw [idxBlk_apply m c hr t p k, valBlk_apply m c t p k]

end Cert.KernelIdeal.Result

end
-- ==== Proof.KernelValue.lean ====
/-
  The kernel's result array is `G` of the arguments. What point `t` writes back is the product of its tile's routed rows — filled
  into the carried scratch by the tile's first point — with its block of the up table: rows `512·(t/2) + p`, columns `2048·(t%2) + q`
  of `G`. The 64 blocks tile the 16384×4096 array, so after the run the array is `G` everywhere.
-/
import proofs.«407315_j50878182588815_3_alg».proof.Proof.KernelBlocks
import proofs.«407315_j50878182588815_3_alg».proof.Proof.Gen.KernelIdeal.Value

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.KernelIdeal.Pieces Cert.KernelIdeal.Payload Cert.KernelIdeal.HostSide Cert.Routed

variable (m : (ℓ : Loc nD τ sig) → Buf (Elt Ideal) ℓ) (ρ : Dev nD → PrngReg)

/-- The specification at the arguments as launched, as contents of the result array. -/
abbrev spec (c : Dev nD) : Buf (Elt Ideal) ((c : Thread nD τ).loc main_v5) :=
  G (m ((c : Thread nD τ).loc main_arg0)) (m ((c : Thread nD τ).loc main_arg1)) (m ((c : Thread nD τ).loc main_arg2))
    (m ((c : Thread nD τ).loc main_arg3)) (m ((c : Thread nD τ).loc main_arg4))

theorem rowOf_congr {s t : Fin cfg0.N} (h : s.val / 2 = t.val / 2) (p : Fin 512) : rowOf s p = rowOf t p :=
  Fin.ext (by show s.val / 2 * 512 + p.val = t.val / 2 * 512 + p.val; rw [h])

/-- The routed rows of the tile of `s`, times point `t`'s block of the up table, is `t`'s block of `G` when `s` and `t` share the row tile. -/
theorem outBlk_apply (c : Dev nD) (hr : InRange (m ((c : Thread nD τ).loc main_arg4))) (s t : Fin cfg0.N) (hst : s.val / 2 = t.val / 2)
    (p : Fin 512) (q : Fin 2048) :
    k0_pay2 (F := Ideal) (upBlk m c t) (routedTile (F := Ideal) (hidBlk m c s) (downBlk m c s) (idxBlk m c s) (valBlk m c s)) (ix2 p q)
      = spec m c (ix2 (rowOf t p) (colOf t q)) := by
  rw [up_apply]
  show _ = ∑ r : Fin 64, routed (m ((c : Thread nD τ).loc main_arg0)) (m ((c : Thread nD τ).loc main_arg1)) (m ((c : Thread nD τ).loc main_arg3))
      (m ((c : Thread nD τ).loc main_arg4)) (rowOf t p) r * m ((c : Thread nD τ).loc main_arg2) (ix2 (colOf t q) r)
  refine Finset.sum_congr rfl fun r _ => ?_
  rw [tile_routed m c hr s p r, upBlk_apply, rowOf_congr hst]

/-- Where point `t`'s output block sits in the array. -/
theorem emb_out (t : Fin cfg0.N) (p : Fin 512) (q : Fin 2048) :
    ((cfg0.win 5).blk t).view.emb (ix2 p q) = ix2 (rowOf t p) (colOf t q) := by
  obtain ⟨-, -, -, -, -, -, -, -, -, -, e0, e1⟩ := idx_facts t
  refine funext fun a => Fin.ext ?_
  match a with
  | ⟨0, _⟩ => show win0_5.index t (0 : Fin 2) * 512 + 1 * p.val = t.val / 2 * 512 + p.val; rw [e0]; omega
  | ⟨1, _⟩ => show win0_5.index t (1 : Fin 2) * 2048 + 1 * q.val = t.val % 2 * 2048 + q.val; rw [e1]; omega

/-- WHAT POINT `t` WRITES BACK is block `t` of `G`. -/
theorem flushed_eq (c : Dev nD) (hr : InRange (m ((c : Thread nD τ).loc main_arg4))) (t : Fin cfg0.N) :
    (dats m 0 c).flushed 5 t = ((cfg0.win 5).blk t).view.read (Elt Ideal) (spec m c) := by
  have hN : cfg0.N = 64 := N_0
  by_cases h0 : t.val % 2 = 0
  · -- the tile's first point: it fills the scratch and multiplies it at once
    rw [Value.flushed5_A m c t h0]
    funext y
    obtain ⟨p, q, rfl⟩ : ∃ (p : Fin 512) (q : Fin 2048), y = ix2 p q := ⟨y 0, y 1, eq_ix2 y⟩
    show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (hidBlk m c t) (downBlk m c t) (upBlk m c t) (idxBlk m c t) (valBlk m c t) (ix2 p q)
      = spec m c (((cfg0.win 5).blk t).view.emb (ix2 p q))
    rw [emb_out]
    refine (congrFun (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (hidBlk m c t) (downBlk m c t) (upBlk m c t) (idxBlk m c t) (valBlk m c t)) (ix2 p q)).trans ?_
    exact outBlk_apply m c hr t t rfl p q
  · -- the tile's second point: it multiplies the scratch the first point left
    have htl : t.val - 1 < cfg0.N := Nat.lt_of_le_of_lt (Nat.sub_le _ _) t.isLt
    let s : Fin cfg0.N := ⟨t.val - 1, htl⟩
    have hev : s.val % 2 = 0 := by show (t.val - 1) % 2 = 0; omega
    have hst : s.val / 2 = t.val / 2 := by show (t.val - 1) / 2 = t.val / 2; omega
    have hsc : (outsAt0 m c (t.val - 1) htl).2
        = routedTile (F := Ideal) (hidBlk m c s) (downBlk m c s) (idxBlk m c s) (valBlk m c s) := by
      have hA := outsAt0_A m c s hev
      have hA2 : (outsAt0 m c (t.val - 1) htl).2 = sout0_A_0 c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) ((hcond0_0 s).mpr hev) (iblk m c 0 s) (iblk m c 1 s) (iblk m c 2 s) (iblk m c 3 s) (iblk m c 4 s) := by
        show (outsAt0 m c s.val s.isLt).2 = _
        rw [hA]
      rw [hA2]
      exact scratch_A (F := Ideal) c (grid0.coords s) (ms0_0 s) (hs0_0 s) (ms0_1 s) (hs0_1 s) (ms0_2 s) (hs0_2 s) (ms0_3 s) (hs0_3 s) (ms0_4 s) (hs0_4 s) (ms0_5 s) (hs0_5 s) scM0_0 (Memref.isWhole_whole _) ((hcond0_0 s).mpr hev) (hidBlk m c s) (downBlk m c s) (upBlk m c s) (idxBlk m c s) (valBlk m c s)
    rw [Value.flushed5_B m c t h0]
    funext y
    obtain ⟨p, q, rfl⟩ : ∃ (p : Fin 512) (q : Fin 2048), y = ix2 p q := ⟨y 0, y 1, eq_ix2 y⟩
    show out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (hidBlk m c t) (downBlk m c t) (upBlk m c t) (idxBlk m c t) (valBlk m c t) (outsAt0 m c (t.val - 1) htl).2 (ix2 p q)
      = spec m c (((cfg0.win 5).blk t).view.emb (ix2 p q))
    rw [emb_out, hsc]
    refine (congrFun (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (hidBlk m c t) (downBlk m c t) (upBlk m c t) (idxBlk m c t) (valBlk m c t)
      (routedTile (F := Ideal) (hidBlk m c s) (downBlk m c s) (idxBlk m c s) (valBlk m c s))) (ix2 p q)).trans ?_
    exact outBlk_apply m c hr s t hst p q

/-- An index of the array is in point `t`'s block iff each coordinate is in the block's range on its axis. -/
theorem mem_blk (t : Fin cfg0.N) (i : S16384x4096.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v5).slice (win0_5.rect t)).set ↔ _
  rw [View.set_slice_whole, Rect.mem_set_unit]
  exact Iff.rfl

/-- Every entry of the array lies in the block of the point with row tile `i₀ / 512` and column tile `i₁ / 2048`. -/
theorem cover (i : S16384x4096.Idx) : ∃ t : Fin cfg0.N, (cfg0.win 5).flush t = true ∧ i ∈ ((cfg0.win 5).blk t).view.set := by
  have hN : cfg0.N = 64 := N_0
  have hi0 : (i 0).val < 16384 := (i 0).isLt
  have hi1 : (i 1).val < 4096 := (i 1).isLt
  have htl : 2 * ((i 0).val / 512) + (i 1).val / 2048 < cfg0.N := by rw [hN]; omega
  refine ⟨⟨2 * ((i 0).val / 512) + (i 1).val / 2048, htl⟩, flush0_5 _, ?_⟩
  rw [mem_blk]
  obtain ⟨-, -, -, -, -, -, -, -, -, -, e0, e1⟩ := idx_facts ⟨2 * ((i 0).val / 512) + (i 1).val / 2048, htl⟩
  intro a
  match a with
  | ⟨0, _⟩ =>
    show win0_5.index ⟨2 * ((i 0).val / 512) + (i 1).val / 2048, htl⟩ (0 : Fin 2) * 512 ≤ (i 0).val
      ∧ (i 0).val < win0_5.index ⟨2 * ((i 0).val / 512) + (i 1).val / 2048, htl⟩ (0 : Fin 2) * 512 + 512
    rw [e0]; dsimp only; omega
  | ⟨1, _⟩ =>
    show win0_5.index ⟨2 * ((i 0).val / 512) + (i 1).val / 2048, htl⟩ (1 : Fin 2) * 2048 ≤ (i 1).val
      ∧ (i 1).val < win0_5.index ⟨2 * ((i 0).val / 512) + (i 1).val / 2048, htl⟩ (1 : Fin 2) * 2048 + 2048
    rw [e1]; dsimp only; omega

/-- THE ARRAY after the run is `G` of the arguments, where every index is a slot number. -/
theorem final (c : Dev nD) (hr : InRange (m ((c : Thread nD τ).loc main_arg4))) : (dats m 0 c).arrAt 5 cfg0.N = spec m c :=
  (dats m 0 c).arrAt_eq_of_cover 5 (spec m c) (fun t _ => flushed_eq m c hr t) cover

/-- The run, read: the result array at `G` of the arguments, the arguments unchanged. -/
theorem run (hr : ∀ c : Dev nD, InRange (m ((c : Thread nD τ).loc main_arg4))) :
    θ_run defs (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hr c)), (h c).2⟩) (Value.run_blocks m ρ)

end Cert.KernelIdeal.Result

end
-- ==== Proof.LibScatterSet.lean ====
/-
  A scatter that SETS (its update rule returns the update), read at one index of the operand.

  `Host.scatter` applies its updates one after another in row-major order of the update indices; an update whose result index
  falls outside the operand is dropped. For the rule "keep the update" only the LAST update that lands on an index matters, so:
  * if exactly one update index `j` lands on `i`, the result at `i` is the update at `j`;
  * if no update index lands on `i`, the result at `i` is the operand's own entry.
  Both are facts about a left fold over a list, and hold for every dimension record.
-/
import Idealize.ShloMosaic.PureOps.ShapeOps

namespace Cert.Lib.ScatterSet

open Idealize.ShloMosaic

/-! ### The fold behind a setting scatter, over an arbitrary list

  `ri n` is the place the `n`-th write lands on (`none`: the write is dropped) and `v n` the value it writes. One step
  overwrites the function at `ri n` and leaves every other place alone; the fold runs the steps from left to right. -/
section Fold

variable {ι κ β : Type} [DecidableEq κ]

/-- One write: overwrite the place `ri n` by `v n`, or do nothing when the write is dropped. -/
private def setStep (ri : ι → Option κ) (v : ι → β) (r : κ → β) (n : ι) : κ → β :=
  match ri n with
  | some k => fun i' => if i' = k then v n else r i'
  | none => r

/-- A write that lands on `i` leaves its value there. -/
private theorem setStep_hit (ri : ι → Option κ) (v : ι → β) (r : κ → β) (n : ι) (i : κ) (h : ri n = some i) :
    setStep ri v r n i = v n := by
  simp [setStep, h]

/-- A write that does not land on `i` leaves the entry at `i` as it was. -/
private theorem setStep_miss (ri : ι → Option κ) (v : ι → β) (r : κ → β) (n : ι) (i : κ) (h : ri n ≠ some i) :
    setStep ri v r n i = r i := by
  unfold setStep
  cases hk : ri n with
  | none => rfl
  | some k =>
    have hik : i ≠ k := fun e => h (by rw [hk, e])
    simp [hik]

/-- If no write of the list lands on `i`, the fold leaves the entry at `i` as it was. -/
private theorem foldl_setStep_of_forall_ne (ri : ι → Option κ) (v : ι → β) (i : κ) :
    ∀ (l : List ι) (r : κ → β), (∀ n ∈ l, ri n ≠ some i) → l.foldl (setStep ri v) r i = r i
  | [], _, _ => rfl
  | a :: t, r, h => by
    rw [List.foldl_cons, foldl_setStep_of_forall_ne ri v i t _ fun n hn => h n (List.mem_cons_of_mem _ hn)]
    exact setStep_miss ri v r a i (h a List.mem_cons_self)

/-- If `n₀` is in the list and lands on `i`, and every write of the list that lands on `i` is `n₀`, the fold leaves
  `v n₀` at `i`: after the last occurrence of `n₀` nothing touches `i` any more. -/
private theorem foldl_setStep_of_unique (ri : ι → Option κ) (v : ι → β) (i : κ) (n₀ : ι) (h₀ : ri n₀ = some i) :
    ∀ (l : List ι) (r : κ → β), n₀ ∈ l → (∀ n ∈ l, ri n = some i → n = n₀) → l.foldl (setStep ri v) r i = v n₀
  | [], _, hmem, _ => absurd hmem List.not_mem_nil
  | a :: t, r, hmem, huniq => by
    rw [List.foldl_cons]
    by_cases ht : n₀ ∈ t
    · -- `n₀` occurs again later: the earlier steps do not matter
      exact foldl_setStep_of_unique ri v i n₀ h₀ t _ ht fun n hn => huniq n (List.mem_cons_of_mem _ hn)
    · -- `n₀` is the head and does not occur in the tail, so no write of the tail lands on `i`
      have ha : a = n₀ := by
        rcases List.mem_cons.mp hmem with e | e
        · exact e.symm
        · exact absurd e ht
      subst ha
      rw [foldl_setStep_of_forall_ne ri v i t _ fun n hn e =>
        ht (huniq n (List.mem_cons_of_mem _ hn) e ▸ hn)]
      exact setStep_hit ri v r a i h₀

end Fold

/-! ### The two facts about `Host.scatter` -/

variable {α : Type} {s si u : Shape} {w : Nat}

/-- A setting scatter is the fold of `setStep` over the update positions in row-major order. -/
private theorem scatter_set_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  congr 1
  funext r n
  unfold setStep
  dsimp only
  cases d.resultIdx? (u.rowMajor.symm n) idx <;> rfl

/-- Exactly one update lands on `i`: the scatter leaves that update there. -/
theorem scatter_set_apply_of_unique (d : ScatterDims s si u) (x : s.Idx → α) (idx : IVec si w) (upd : u.Idx → α)
    (i : s.Idx) (j : u.Idx) (hj : d.resultIdx? j idx = some i)
    (huniq : ∀ j' : u.Idx, d.resultIdx? j' idx = some i → j' = j) :
    Host.scatter d (fun _ b => b) x idx upd i = upd j := by
  rw [scatter_set_eq_foldl,
    foldl_setStep_of_unique (fun n => d.resultIdx? (u.rowMajor.symm n) idx) (fun n => upd (u.rowMajor.symm n)) i
      (u.rowMajor j) (by simpa using hj) _ x (List.mem_finRange _)]
  · simp
  · -- a position that lands on `i` is the position of `j`, since row-major numbering is a bijection
    intro n _ hn
    have := huniq _ hn
    rw [← this, Equiv.apply_symm_apply]

/-- No update lands on `i`: the scatter leaves the operand's entry there. -/
theorem scatter_set_apply_of_none (d : ScatterDims s si u) (x : s.Idx → α) (idx : IVec si w) (upd : u.Idx → α)
    (i : s.Idx) (hnone : ∀ j : u.Idx, d.resultIdx? j idx ≠ some i) :
    Host.scatter d (fun _ b => b) x idx upd i = x i := by
  rw [scatter_set_eq_foldl]
  exact foldl_setStep_of_forall_ne _ _ i _ x fun n _ => hnone _

end Cert.Lib.ScatterSet
-- ==== Proof.RefValue.lean ====
/-
  The reference computes `G`. Its last stage is the up projection `Σ_r v20[n,r] · uw[o,r]` of the scattered rows `v20`;
  under the two index conditions the scatter writes `down n r · val[n,k]` at the one slot `r = idx[n,k]` an index names and leaves
  zero elsewhere, which is `down n r · slotWeight n r` slot by slot.

  The stages, in the order of the lemmas below: every index is a slot number, so the tests "index < 0" are false and the
  in-range test is true everywhere (its conjunction over the unit axis too); the gather at (n, k) reads the first projection's
  row n at slot idx[n,k]; the scatter's index pairs are (n, idx[n,k]); the update at (n, k) lands at (n, idx[n,k]), and by
  row-distinctness it is the only one landing there.
-/
import proofs.«407315_j50878182588815_3_alg».proof.Proof.RefRead
import proofs.«407315_j50878182588815_3_alg».proof.Proof.Spec
import proofs.«407315_j50878182588815_3_alg».proof.Proof.LibScatterSet
import Idealize.ShloMosaic.Lib.StableHlo.Predicate

noncomputable section

namespace Cert.ReferenceIdeal.RefValue

open Cert.ReferenceIdeal Cert.ReferenceIdeal.Gen Cert.ReferenceIdeal.RefRead Cert.Routed
open Idealize.ShloMosaic Idealize.ShloMosaic.ValueIdx
open Idealize.ShloMosaic.StableHlo.Predicate

/-- A word whose signed value is in [0, 64) has unsigned value below 64. -/
private theorem toNat_lt (x4 : STop.Idx → BitVec 32) (hr : InRange x4) (i : STop.Idx) : (x4 i).toNat < 64 :=
  (hr.eq_ofNat i).1

/-- The signed compare "below zero" is false on a word with the sign bit clear. -/
private theorem slt_zero (w : BitVec 32) (hw : w.toNat < 2 ^ 31) : IntOp.cmpi .slt w 0#32 = 0#1 := by
  refine eq_zero_of_ne_one fun h => ?_
  have := (slt_iff_toNat (a := w) (b := 0#32) hw (by decide)).1 h
  simp at this

/-- The index array, normalized for negative entries, is the index array itself. -/
private theorem v4_at (x4 : (⟨S16384x8, .i32⟩ : BufTy).Contents (Elt Ideal)) (hr : InRange x4) (i : S16384x8.Idx) :
    val_main_call0_v4 (F := Ideal) x4 i = x4 i := by
  rw [val_main_call0_v4_apply, val_main_call0_v1_apply, val_main_call0_v0_apply, val_main_call0_c_apply,
    slt_zero _ (by have := toNat_lt x4 hr i; omega), select_zero]

/-- The reshaped index array at (n, k, 0) is the index at (n, k). -/
private theorem v5_at (x4 : (⟨S16384x8, .i32⟩ : BufTy).Contents (Elt Ideal)) (hr : InRange x4) (n : Fin 16384) (k : Fin 8) (z : Fin 1) :
    val_main_call0_v5 (F := Ideal) x4 (ix3 n k z) = x4 (ix2 n k) := by
  rw [val_main_call0_v5_apply, v4_at x4 hr]
  congr 1
  funext a
  refine Fin.ext ?_
  have hz : z.val = 0 := by omega
  match a with
  | ⟨0, _⟩ => show ((n.val * 8 + k.val) * 1 + z.val) / 8 = n.val; omega
  | ⟨1, _⟩ => show ((n.val * 8 + k.val) * 1 + z.val) % 8 = k.val; omega

/-- The in-range test holds at every position. -/
private theorem v11_nk (x4 : (⟨S16384x8, .i32⟩ : BufTy).Contents (Elt Ideal)) (hr : InRange x4) (n : Fin 16384) (k : Fin 8) (z : Fin 1) :
    val_main_call0_v11 (F := Ideal) x4 (ix3 n k z) = 1#1 := by
  have hw := toNat_lt x4 hr (ix2 n k)
  rw [val_main_call0_v11_apply, val_main_call0_v7_apply, val_main_call0_v10_apply, v5_at x4 hr,
    val_main_call0_v6_apply, val_main_call0_c_2_apply, val_main_call0_v9_apply, val_main_call0_v8_apply,
    val_main_call0_c_1_apply,
    (sge_iff_toNat (a := x4 (ix2 n k)) (b := 0#32) (by omega) (by decide)).2 (by simp),
    (sle_iff_toNat (a := x4 (ix2 n k)) (b := 63#32) (by omega) (by decide)).2 (by
      show (x4 (ix2 n k)).toNat ≤ 63; omega)]
  rfl

/-- The same at an arbitrary position of the rank-3 array. -/
private theorem v11_at (x4 : (⟨S16384x8, .i32⟩ : BufTy).Contents (Elt Ideal)) (hr : InRange x4) (i : S16384x8x1.Idx) :
    val_main_call0_v11 (F := Ideal) x4 i = 1#1 := by
  have e : i = ix3 (n0 := 16384) (n1 := 8) (n2 := 1) (i 0) (i 1) (i 2) := eq_ix3 i
  rw [e]
  exact v11_nk x4 hr _ _ _

/-- A conjunction folded over ones from one is one. -/
private theorem foldl_andi_one {β : Type} (g : β → BitVec 1) (hg : ∀ b, g b = 1#1) (l : List β) :
    l.foldl (fun r b => IntOp.andi r (g b)) 1#1 = 1#1 := by
  induction l with
  | nil => rfl
  | cons b l ih => rw [List.foldl_cons, hg b]; exact ih

/-- The reduced in-range test is one at every position. -/
private theorem v12_at (x4 : (⟨S16384x8, .i32⟩ : BufTy).Contents (Elt Ideal)) (hr : InRange x4) (j : S16384x8.Idx) :
    val_main_call0_v12 (F := Ideal) x4 j = 1#1 := by
  unfold val_main_call0_v12 Host.reduce
  exact foldl_andi_one _ (fun n => v11_at x4 hr _) _

/-- The slot an index names, as a coordinate of the 64 slots. -/
private abbrev slotOf (x4 : STop.Idx → BitVec 32) (hr : InRange x4) (n : Fin 16384) (k : Fin 8) : Fin 64 :=
  ⟨(x4 (ix2 n k)).toNat, toNat_lt x4 hr (ix2 n k)⟩

/-- A word below 64 reads the same signed and unsigned. -/
private theorem toInt_toNat (w : BitVec 32) (hw : w.toNat < 64) : w.toInt.toNat = w.toNat := by
  rw [toInt_eq_toNat_of_lt (by omega)]; rfl

/-- The start-indices position the gather reads for result position (n, k). -/
private theorem gather_siIdx (n : Fin 16384) (k : Fin 8)
    (c : Fin gather_S16384x64_S16384x8x1_S16384x8_n_1_0_0_1_2_11.startIndexMap.length) :
    gather_S16384x64_S16384x8x1_S16384x8_n_1_0_0_1_2_11.siIdx (ix2 n k) c = ix3 n k (0 : Fin 1) := by
  funext b
  refine Fin.ext ?_
  match b with
  | ⟨0, _⟩ => rfl
  | ⟨1, _⟩ => rfl
  | ⟨2, _⟩ => have := c.isLt; show c.val = 0; simp [gather_S16384x64_S16384x8x1_S16384x8_n_1_0_0_1_2_11] at this; omega

/-- The gather at (n, k) reads the operand's row n at the slot the index names. -/
private theorem v13_at (x0 : (⟨S16384x4096, .f32⟩ : BufTy).Contents (Elt Ideal)) (x1 : (⟨S64x4096, .f32⟩ : BufTy).Contents (Elt Ideal))
    (x4 : (⟨S16384x8, .i32⟩ : BufTy).Contents (Elt Ideal)) (hr : InRange x4) (n : Fin 16384) (k : Fin 8) :
    val_main_call0_v13 (F := Ideal) x0 x1 x4 (ix2 n k) = val_main_v0 (F := Ideal) x0 x1 (ix2 n (slotOf x4 hr n k)) := by
  unfold val_main_call0_v13 Host.gather
  congr 1
  funext a
  refine Fin.ext ?_
  match a with
  | ⟨0, _⟩ =>
    show gather_S16384x64_S16384x8x1_S16384x8_n_1_0_0_1_2_11.start (ix2 n k) (val_main_call0_v5 (F := Ideal) x4) 0
      + gather_S16384x64_S16384x8x1_S16384x8_n_1_0_0_1_2_11.batchCoord (ix2 n k) 0
      + gather_S16384x64_S16384x8x1_S16384x8_n_1_0_0_1_2_11.offCoord (ix2 n k) 0 = n.val
    rw [GatherDims.start_batching _ _ _ _ (by decide),
      GatherDims.offCoord_eq_zero _ _ _ (fun h => ((GatherDims.mem_sKept _ _).1 h).2 (by decide))]
    unfold GatherDims.batchCoord
    rw [dif_pos (by decide), Nat.zero_add, Nat.add_zero]
    rfl
  | ⟨1, _⟩ =>
    show gather_S16384x64_S16384x8x1_S16384x8_n_1_0_0_1_2_11.start (ix2 n k) (val_main_call0_v5 (F := Ideal) x4) 1
      + gather_S16384x64_S16384x8x1_S16384x8_n_1_0_0_1_2_11.batchCoord (ix2 n k) 1
      + gather_S16384x64_S16384x8x1_S16384x8_n_1_0_0_1_2_11.offCoord (ix2 n k) 1 = (x4 (ix2 n k)).toNat
    rw [GatherDims.batchCoord_eq_zero _ _ _ (by decide),
      GatherDims.offCoord_eq_zero _ _ _ (fun h => ((GatherDims.mem_sKept _ _).1 h).1 (by decide))]
    unfold GatherDims.start
    rw [dif_pos (by decide), gather_siIdx, v5_at x4 hr, toInt_toNat _ (toNat_lt x4 hr _)]
    have := toNat_lt x4 hr (ix2 n k)
    show min (x4 (ix2 n k)).toNat (64 - 1) + 0 + 0 = _
    omega

/-- The first projection at a position is the projection row at the slot. -/
private theorem v0_at (x0 : (⟨S16384x4096, .f32⟩ : BufTy).Contents (Elt Ideal)) (x1 : (⟨S64x4096, .f32⟩ : BufTy).Contents (Elt Ideal))
    (n : Fin 16384) (r : Fin 64) : val_main_v0 (F := Ideal) x0 x1 (ix2 n r) = down x0 x1 n r := by
  rw [val_main_v0_apply]
  refine Finset.sum_congr rfl fun i _ => ?_
  have el : lidx_main_v0 (ix2 n r) i = ix2 n i := by
    funext a; refine Fin.ext ?_
    match a with
    | ⟨0, _⟩ => rfl
    | ⟨1, _⟩ => rfl
  have er : ridx_main_v0 (ix2 n r) i = ix2 r i := by
    funext a; refine Fin.ext ?_
    match a with
    | ⟨0, _⟩ => rfl
    | ⟨1, _⟩ => rfl
  rw [el, er]

/-- The update at (n, k): the projection at the named slot times the weight. -/
private theorem v2_at (x0 : (⟨S16384x4096, .f32⟩ : BufTy).Contents (Elt Ideal)) (x1 : (⟨S64x4096, .f32⟩ : BufTy).Contents (Elt Ideal))
    (x3 : (⟨S16384x8, .f32⟩ : BufTy).Contents (Elt Ideal))
    (x4 : (⟨S16384x8, .i32⟩ : BufTy).Contents (Elt Ideal)) (hr : InRange x4) (n : Fin 16384) (k : Fin 8) :
    val_main_v2 (F := Ideal) x0 x1 x3 x4 (ix2 n k) = down x0 x1 n (slotOf x4 hr n k) * x3 (ix2 n k) := by
  rw [val_main_v2_apply, val_main_v1_apply, v12_at x4 hr, select_one, v13_at x0 x1 x4 hr, v0_at, Ideal.mulf_def]

/-- The row-number array at (n, k, 0) is the word n. -/
private theorem v17_at (n : Fin 16384) (k : Fin 8) (z : Fin 1) :
    val_main_v17 (F := Ideal) (ix3 n k z) = BitVec.ofNat 32 n.val := by
  rw [val_main_v17_apply, val_main_v16_apply, val_main_v10_apply, val_main_v7_apply, val_main_v4_apply,
    val_main_v3_apply, val_main_v6_apply, val_main_c_apply]
  have hn : (BitVec.ofNat 32 n.val).toNat < 2 ^ 31 := by
    rw [BitVec.toNat_ofNat]; have := n.isLt; omega
  exact (congrArg (fun c => Scalar.select c _ _) (slt_zero _ hn)).trans (select_zero _ _)

/-- The normalized index array at (n, k, 0) is the index at (n, k). -/
private theorem v18_at (x4 : (⟨S16384x8, .i32⟩ : BufTy).Contents (Elt Ideal)) (hr : InRange x4) (n : Fin 16384) (k : Fin 8) (z : Fin 1) :
    val_main_v18 (F := Ideal) x4 (ix3 n k z) = x4 (ix2 n k) := by
  have e : idx_main_v18 (ix3 n k z) = ix2 n k := by
    funext a; refine Fin.ext ?_
    match a with
    | ⟨0, _⟩ => rfl
    | ⟨1, _⟩ => rfl
  rw [val_main_v18_apply, e, val_main_v15_apply, val_main_v12_apply, val_main_v11_apply, val_main_c_1_apply,
    slt_zero _ (by have := toNat_lt x4 hr (ix2 n k); omega), select_zero]

/-- The pair (row number, slot) the scatter reads at (n, k): first component. -/
private theorem v19_at0 (x4 : (⟨S16384x8, .i32⟩ : BufTy).Contents (Elt Ideal)) (n : Fin 16384) (k : Fin 8) :
    val_main_v19 (F := Ideal) x4 (ix3 n k (0 : Fin 2)) = BitVec.ofNat 32 n.val := by
  unfold val_main_v19
  refine (concatenate_pair_apply_left (t := S16384x8x2) (s₁ := S16384x8x1) (s₂ := S16384x8x1) (2 : Fin 3) _ _ _ (ix3 n k (0 : Fin 2)) rfl (ix3 n k (0 : Fin 1)) (fun b => ?_)).trans
    (v17_at n k 0)
  match b with
  | ⟨0, _⟩ => rfl
  | ⟨1, _⟩ => rfl
  | ⟨2, _⟩ => rfl

/-- The pair (row number, slot) the scatter reads at (n, k): second component. -/
private theorem v19_at1 (x4 : (⟨S16384x8, .i32⟩ : BufTy).Contents (Elt Ideal)) (hr : InRange x4) (n : Fin 16384) (k : Fin 8) :
    val_main_v19 (F := Ideal) x4 (ix3 n k (1 : Fin 2)) = x4 (ix2 n k) := by
  unfold val_main_v19
  refine (concatenate_pair_apply_right (t := S16384x8x2) (s₁ := S16384x8x1) (s₂ := S16384x8x1) (2 : Fin 3) _ _ _ (ix3 n k (1 : Fin 2)) rfl rfl (ix3 n k (0 : Fin 1)) (fun b hb => ?_) rfl).trans
    (v18_at x4 hr n k 0)
  match b with
  | ⟨0, _⟩ => rfl
  | ⟨1, _⟩ => rfl
  | ⟨2, _⟩ => exact absurd rfl hb

/-- The scatter-indices position the scatter reads for component c of update position (n, k). -/
private theorem scat_siIdx (n : Fin 16384) (k : Fin 8)
    (c : Fin scatter_S16384x64_S16384x8x2_S16384x8_n_01_01_2.scatterDimsToOperandDims.length) :
    scatter_S16384x64_S16384x8x2_S16384x8_n_01_01_2.siIdx (ix2 n k) c = ix3 n k (c.cast rfl : Fin 2) := by
  funext b
  refine Fin.ext ?_
  match b with
  | ⟨0, _⟩ => rfl
  | ⟨1, _⟩ => rfl
  | ⟨2, _⟩ => rfl

/-- The window start on the row axis is the row number. -/
private theorem scat_start0 (x4 : (⟨S16384x8, .i32⟩ : BufTy).Contents (Elt Ideal)) (n : Fin 16384) (k : Fin 8) :
    scatter_S16384x64_S16384x8x2_S16384x8_n_01_01_2.start (ix2 n k) (val_main_v19 (F := Ideal) x4) 0 = (n.val : Int) := by
  unfold ScatterDims.start
  rw [dif_pos (by decide), scat_siIdx]
  show (val_main_v19 (F := Ideal) x4 (ix3 n k (0 : Fin 2))).toInt = _
  rw [v19_at0, toInt_ofNat_small _ (by have := n.isLt; omega)]

/-- The window start on the slot axis is the slot the index names. -/
private theorem scat_start1 (x4 : (⟨S16384x8, .i32⟩ : BufTy).Contents (Elt Ideal)) (hr : InRange x4) (n : Fin 16384) (k : Fin 8) :
    scatter_S16384x64_S16384x8x2_S16384x8_n_01_01_2.start (ix2 n k) (val_main_v19 (F := Ideal) x4) 1
      = ((x4 (ix2 n k)).toNat : Int) := by
  unfold ScatterDims.start
  rw [dif_pos (by decide), scat_siIdx]
  show (val_main_v19 (F := Ideal) x4 (ix3 n k (1 : Fin 2))).toInt = _
  rw [v19_at1 x4 hr, toInt_eq_toNat_of_lt (by have := toNat_lt x4 hr (ix2 n k); omega)]

/-- Both operand axes are inserted window axes: the window coordinate is zero. -/
private theorem scat_window (j : S16384x8.Idx) (a : Fin 2) :
    scatter_S16384x64_S16384x8x2_S16384x8_n_01_01_2.window j a = 0 := by
  unfold ScatterDims.window
  rw [dif_neg (by revert a; decide)]

/-- The update at (n, k) lands at row n, at the slot its index names. -/
private theorem scat_result (x4 : (⟨S16384x8, .i32⟩ : BufTy).Contents (Elt Ideal)) (hr : InRange x4) (n : Fin 16384) (k : Fin 8) :
    scatter_S16384x64_S16384x8x2_S16384x8_n_01_01_2.resultIdx? (ix2 n k) (val_main_v19 (F := Ideal) x4)
      = some (ix2 n (slotOf x4 hr n k)) := by
  have h0 := scat_start0 x4 n k
  have h1 := scat_start1 x4 hr n k
  have hw := toNat_lt x4 hr (ix2 n k)
  unfold ScatterDims.resultIdx?
  split
  · refine congrArg some (funext fun a => Fin.ext ?_)
    match a with
    | ⟨0, _⟩ =>
      show (scatter_S16384x64_S16384x8x2_S16384x8_n_01_01_2.start (ix2 n k) (val_main_v19 (F := Ideal) x4) 0
        + (scatter_S16384x64_S16384x8x2_S16384x8_n_01_01_2.window (ix2 n k) 0 : Nat)).toNat = n.val
      rw [h0, scat_window]; simp
    | ⟨1, _⟩ =>
      show (scatter_S16384x64_S16384x8x2_S16384x8_n_01_01_2.start (ix2 n k) (val_main_v19 (F := Ideal) x4) 1
        + (scatter_S16384x64_S16384x8x2_S16384x8_n_01_01_2.window (ix2 n k) 1 : Nat)).toNat = (x4 (ix2 n k)).toNat
      rw [h1, scat_window]; simp
  · rename_i h
    refine absurd (fun a => ?_) h
    match a with
    | ⟨0, _⟩ =>
      show 0 ≤ scatter_S16384x64_S16384x8x2_S16384x8_n_01_01_2.start (ix2 n k) (val_main_v19 (F := Ideal) x4) 0
          + (scatter_S16384x64_S16384x8x2_S16384x8_n_01_01_2.window (ix2 n k) 0 : Nat) ∧
        scatter_S16384x64_S16384x8x2_S16384x8_n_01_01_2.start (ix2 n k) (val_main_v19 (F := Ideal) x4) 0
          + (scatter_S16384x64_S16384x8x2_S16384x8_n_01_01_2.window (ix2 n k) 0 : Nat) < (16384 : Nat)
      rw [h0, scat_window]; have := n.isLt; omega
    | ⟨1, _⟩ =>
      show 0 ≤ scatter_S16384x64_S16384x8x2_S16384x8_n_01_01_2.start (ix2 n k) (val_main_v19 (F := Ideal) x4) 1
          + (scatter_S16384x64_S16384x8x2_S16384x8_n_01_01_2.window (ix2 n k) 1 : Nat) ∧
        scatter_S16384x64_S16384x8x2_S16384x8_n_01_01_2.start (ix2 n k) (val_main_v19 (F := Ideal) x4) 1
          + (scatter_S16384x64_S16384x8x2_S16384x8_n_01_01_2.window (ix2 n k) 1 : Nat) < (64 : Nat)
      rw [h1, scat_window]; omega

/-- Where an update lands, as two equations: the row and the slot. -/
private theorem landing (x4 : (⟨S16384x8, .i32⟩ : BufTy).Contents (Elt Ideal)) (hr : InRange x4) (n : Fin 16384) (r : Fin 64)
    (j : S16384x8.Idx)
    (h : scatter_S16384x64_S16384x8x2_S16384x8_n_01_01_2.resultIdx? j (val_main_v19 (F := Ideal) x4) = some (ix2 n r)) :
    ∃ k : Fin 8, j = ix2 n k ∧ x4 (ix2 n k) = BitVec.ofNat 32 r.val := by
  obtain ⟨n', k', rfl⟩ : ∃ (n' : Fin 16384) (k' : Fin 8), j = ix2 n' k' := ⟨j 0, j 1, eq_ix2 j⟩
  rw [scat_result x4 hr] at h
  have h' := Option.some.inj h
  have hn : n' = n := congrFun h' 0
  have hs : slotOf x4 hr n' k' = r := congrFun h' 1
  subst hn
  refine ⟨k', rfl, ?_⟩
  rw [(hr.eq_ofNat (ix2 n' k')).2]
  exact congrArg (fun s : Fin 64 => BitVec.ofNat 32 s.val) hs

/-- The scattered rows, slot by slot: the projection times the weight of the slot. -/
private theorem v20_at (x0 : (⟨S16384x4096, .f32⟩ : BufTy).Contents (Elt Ideal)) (x1 : (⟨S64x4096, .f32⟩ : BufTy).Contents (Elt Ideal))
    (x3 : (⟨S16384x8, .f32⟩ : BufTy).Contents (Elt Ideal))
    (x4 : (⟨S16384x8, .i32⟩ : BufTy).Contents (Elt Ideal)) (hr : InRange x4) (hd : RowDistinct x4) (n : Fin 16384) (r : Fin 64) :
    val_main_v20 (F := Ideal) x0 x1 x3 x4 (ix2 n r) = routed x0 x1 x3 x4 n r := by
  unfold val_main_v20 routed
  by_cases hex : ∃ k : Fin 8, x4 (ix2 n k) = BitVec.ofNat 32 r.val
  · obtain ⟨k, hk⟩ := hex
    have hs : slotOf x4 hr n k = r := Fin.ext (by
      show (x4 (ix2 n k)).toNat = r.val
      rw [hk, BitVec.toNat_ofNat]; have := r.isLt; omega)
    refine (Cert.Lib.ScatterSet.scatter_set_apply_of_unique _ _ _ _ (ix2 n r) (ix2 n k)
      (by rw [scat_result x4 hr, hs]) (fun j' hj' => ?_)).trans ?_
    · obtain ⟨k', e, hk'⟩ := landing x4 hr n r j' hj'
      rw [e, hd n k' k (hk'.trans hk.symm)]
    · rw [v2_at x0 x1 x3 x4 hr, hs, slotWeight_hit hd n k r hk]
  · refine (Cert.Lib.ScatterSet.scatter_set_apply_of_none _ _ _ _ (ix2 n r) (fun j hj => ?_)).trans ?_
    · obtain ⟨k, _, hk⟩ := landing x4 hr n r j hj
      exact hex ⟨k, hk⟩
    · rw [val_main_v5_apply, val_main_cst_apply, slotWeight_miss n r (fun k hk => hex ⟨k, hk⟩), mul_zero]
      exact Ideal.ofBits_zero_f32

/-- The reference's result term is `G` of the arguments, when every index is a slot number and no row names a slot twice. -/
theorem reference_eq (x0 : (⟨S16384x4096, .f32⟩ : BufTy).Contents (Elt Ideal)) (x1 : (⟨S64x4096, .f32⟩ : BufTy).Contents (Elt Ideal))
    (x2 : (⟨S4096x64, .f32⟩ : BufTy).Contents (Elt Ideal)) (x3 : (⟨S16384x8, .f32⟩ : BufTy).Contents (Elt Ideal))
    (x4 : (⟨S16384x8, .i32⟩ : BufTy).Contents (Elt Ideal)) (hr : InRange x4) (hd : RowDistinct x4) :
    val_main_v21 (F := Ideal) x0 x1 x2 x3 x4 = G x0 x1 x2 x3 x4 := by
  funext i
  rw [val_main_v21_apply]
  unfold G
  refine Finset.sum_congr rfl fun r _ => ?_
  have el : lidx_main_v21 i r = ix2 (n0 := 16384) (n1 := 64) (i 0) r := by
    funext a; refine Fin.ext ?_
    match a with
    | ⟨0, _⟩ => rfl
    | ⟨1, _⟩ => rfl
  have er : ridx_main_v21 i r = ix2 (n0 := 4096) (n1 := 64) (i 1) r := by
    funext a; refine Fin.ext ?_
    match a with
    | ⟨0, _⟩ => rfl
    | ⟨1, _⟩ => rfl
  rw [el, er]
  exact congrArg (fun v => v * x2 (ix2 (n0 := 4096) (n1 := 64) (i 1) r)) (v20_at x0 x1 x3 x4 hr hd (i 0) r)

end Cert.ReferenceIdeal.RefValue

end
-- ==== Proof.IndexFacts.lean ====
/-
  What the precondition says of the index array: every index is a slot number in [0, 64), and a row's eight indices are pairwise
  distinct. The precondition is a conjunction of `all`-reductions; its last three conjuncts are the two signed range tests on
  every entry and the test "idx[n,a] ≠ idx[n,b] or a = b" on every triple (n, a, b).
-/
import proofs.«407315_j50878182588815_3_alg».proof.Pre_finite_inputs
import proofs.«407315_j50878182588815_3_alg».proof.Proof.Spec
import Idealize.ShloMosaic.Lib.ReduceAll
import Idealize.ShloMosaic.Lib.StableHlo.Predicate
import Idealize.ShloMosaic.Lib.Pipeline.Value

namespace Cert.Routed

open Idealize.ShloMosaic Idealize.ShloMosaic.ValueIdx

variable {F : FTy → Type} [FloatOps F] [Cert.Pre_finite_inputs.Facts]

section Decode

open Cert.Pre_finite_inputs

/-- The rank-0 shape has one index. -/
private instance subsingleton_scalar_idx : Subsingleton S_.Idx := ⟨fun a b => funext fun d => d.elim0⟩

/-- An elementwise `and` of two bits that reads 1 at an index had a 1 there on both sides. -/
private theorem andi_apply_eq_one {s : Shape} {x y : IVec s 1} {i : s.Idx} (h : andi x y i = 1#1) :
    x i = 1#1 ∧ y i = 1#1 :=
  IntOp.andi_eq_one.1 h

/-- The signed test `idx ≥ 0` against the broadcast constant 0, read at one entry. -/
private theorem sge_zero_read (idx : IVec S16384x8 32) (hb : S_.BroadcastsInDim S16384x8 (![] : Fin 0 → Fin S16384x8.rank))
    (i : S16384x8.Idx)
    (h : cmpi .sge idx (broadcastInDim S16384x8 ![] hb (constantI S_ 32 0#32)) i = 1#1) : 0 ≤ (idx i).toInt := by
  have h' : IntOp.cmpi .sge (idx i) 0#32 = 1#1 := h
  have h2 := IntOp.cmpi_sge.1 h'
  rwa [show (0#32 : BitVec 32).toInt = 0 from by decide] at h2

/-- The signed test `idx < 64` against the broadcast constant 64, read at one entry. -/
private theorem slt_64_read (idx : IVec S16384x8 32) (hb : S_.BroadcastsInDim S16384x8 (![] : Fin 0 → Fin S16384x8.rank))
    (i : S16384x8.Idx)
    (h : cmpi .slt idx (broadcastInDim S16384x8 ![] hb (constantI S_ 32 64#32)) i = 1#1) : (idx i).toInt < 64 := by
  have h' : IntOp.cmpi .slt (idx i) 64#32 = 1#1 := h
  have h2 := IntOp.cmpi_slt.1 h'
  rwa [show (64#32 : BitVec 32).toInt = 64 from by decide] at h2

/-- The index array broadcast along the third axis reads `idx[n, a]` at `(n, a, b)`. -/
private theorem bcast01_read (idx : IVec S16384x8 32) (hb : S16384x8.BroadcastsInDim S16384x8x8 (![0, 1] : Fin 2 → Fin S16384x8x8.rank))
    (n : Fin 16384) (a b : Fin 8) : broadcastInDim S16384x8x8 ![0, 1] hb idx (ix3 n a b) = idx (ix2 n a) :=
  broadcastInDim_apply ![0, 1] hb idx (ix3 n a b) (ix2 n a) (by
    intro c
    match c with
    | ⟨0, _⟩ =>
      split
      · next h1 => exact absurd (show (16384 : ℕ) = 1 from h1) (by omega)
      · rfl
    | ⟨1, _⟩ =>
      split
      · next h1 => exact absurd (show (8 : ℕ) = 1 from h1) (by omega)
      · rfl)

/-- The index array broadcast along the second axis reads `idx[n, b]` at `(n, a, b)`. -/
private theorem bcast02_read (idx : IVec S16384x8 32) (hb : S16384x8.BroadcastsInDim S16384x8x8 (![0, 2] : Fin 2 → Fin S16384x8x8.rank))
    (n : Fin 16384) (a b : Fin 8) : broadcastInDim S16384x8x8 ![0, 2] hb idx (ix3 n a b) = idx (ix2 n b) :=
  broadcastInDim_apply ![0, 2] hb idx (ix3 n a b) (ix2 n b) (by
    intro c
    match c with
    | ⟨0, _⟩ =>
      split
      · next h1 => exact absurd (show (16384 : ℕ) = 1 from h1) (by omega)
      · rfl
    | ⟨1, _⟩ =>
      split
      · next h1 => exact absurd (show (8 : ℕ) = 1 from h1) (by omega)
      · rfl)

/-- Two column numbers below 8 that agree as 32-bit words agree. -/
private theorem fin8_eq_of_ofNat_eq {a b : Fin 8} (h : BitVec.ofNat 32 a.val = BitVec.ofNat 32 b.val) : a = b := by
  have ha := a.isLt
  have hb := b.isLt
  have h2 := congrArg BitVec.toNat h
  rw [BitVec.toNat_ofNat, BitVec.toNat_ofNat, Nat.mod_eq_of_lt (by omega), Nat.mod_eq_of_lt (by omega)] at h2
  exact Fin.ext h2

/-- The test "idx[n,a] ≠ idx[n,b] or a = b", read at the triple `(n, a, b)`. -/
private theorem distinct_read (idx : IVec S16384x8 32)
    (hb1 : S16384x8.BroadcastsInDim S16384x8x8 (![0, 1] : Fin 2 → Fin S16384x8x8.rank))
    (hb2 : S16384x8.BroadcastsInDim S16384x8x8 (![0, 2] : Fin 2 → Fin S16384x8x8.rank))
    (n : Fin 16384) (a b : Fin 8)
    (h : ori (cmpi .ne (broadcastInDim S16384x8x8 ![0, 1] hb1 idx) (broadcastInDim S16384x8x8 ![0, 2] hb2 idx))
          (cmpi .eq (iotaInDim S16384x8x8 32 1) (iotaInDim S16384x8x8 32 2)) (ix3 n a b) = 1#1)
    (he : idx (ix2 n a) = idx (ix2 n b)) : a = b := by
  have h' : IntOp.ori
      (IntOp.cmpi .ne (broadcastInDim S16384x8x8 ![0, 1] hb1 idx (ix3 n a b)) (broadcastInDim S16384x8x8 ![0, 2] hb2 idx (ix3 n a b)))
      (IntOp.cmpi .eq (BitVec.ofNat 32 a.val) (BitVec.ofNat 32 b.val)) = 1#1 := h
  rw [bcast01_read, bcast02_read] at h'
  rcases IntOp.ori_eq_one.1 h' with h1 | h1
  · exact absurd he (IntOp.cmpi_ne.1 h1)
  · exact fin8_eq_of_ofNat_eq (IntOp.cmpi_eq.1 h1)

/-- The precondition's last three conjuncts, each an `all`-reduction that came out 1. -/
private theorem last_three (a0 : FVec F S16384x4096 .f32) (a1 : FVec F S64x4096 .f32) (a2 : FVec F S4096x64 .f32)
    (a3 : FVec F S16384x8 .f32) (idx : IVec S16384x8 32) (h : fn (F := F) a0 a1 a2 a3 idx = fun _ => 1#1) :
    (∀ i : S16384x8.Idx, cmpi .sge idx (broadcastInDim S16384x8 ![] Facts.bcast_S_S16384x8 (constantI S_ 32 0#32)) i = 1#1)
    ∧ (∀ i : S16384x8.Idx, cmpi .slt idx (broadcastInDim S16384x8 ![] Facts.bcast_S_S16384x8 (constantI S_ 32 64#32)) i = 1#1)
    ∧ (∀ j : S16384x8x8.Idx,
        ori (cmpi .ne (broadcastInDim S16384x8x8 ![0, 1] Facts.bcast_S16384x8_S16384x8x8_0_1 idx)
              (broadcastInDim S16384x8x8 ![0, 2] Facts.bcast_S16384x8_S16384x8x8_0_2 idx))
          (cmpi .eq (iotaInDim S16384x8x8 32 1) (iotaInDim S16384x8x8 32 2)) j = 1#1) := by
  have h0 := congrFun h ValueIdx.ix0
  unfold fn fn_part1 fn_part2 at h0
  dsimp only at h0
  obtain ⟨h1, h34⟩ := andi_apply_eq_one h0
  obtain ⟨h2, h29⟩ := andi_apply_eq_one h1
  obtain ⟨-, h25⟩ := andi_apply_eq_one h2
  exact ⟨fun i => Host.reduce_andi_all _ _ _ _ _ h25 i, fun i => Host.reduce_andi_all _ _ _ _ _ h29 i,
    fun j => Host.reduce_andi_all _ _ _ _ _ h34 j⟩

end Decode

/-- Under the precondition every index is a slot number. -/
theorem inRange_of_pre (a0 : FVec F Cert.Pre_finite_inputs.S16384x4096 .f32) (a1 : FVec F Cert.Pre_finite_inputs.S64x4096 .f32)
    (a2 : FVec F Cert.Pre_finite_inputs.S4096x64 .f32) (a3 : FVec F Cert.Pre_finite_inputs.S16384x8 .f32)
    (idx : IVec Cert.Pre_finite_inputs.S16384x8 32)
    (h : Cert.Pre_finite_inputs.fn (F := F) a0 a1 a2 a3 idx = fun _ => 1#1) : InRange idx := by
  obtain ⟨hge, hlt, -⟩ := last_three a0 a1 a2 a3 idx h
  exact fun i => ⟨sge_zero_read idx _ i (hge i), slt_64_read idx _ i (hlt i)⟩

/-- Under the precondition a row names no slot twice. -/
theorem rowDistinct_of_pre (a0 : FVec F Cert.Pre_finite_inputs.S16384x4096 .f32) (a1 : FVec F Cert.Pre_finite_inputs.S64x4096 .f32)
    (a2 : FVec F Cert.Pre_finite_inputs.S4096x64 .f32) (a3 : FVec F Cert.Pre_finite_inputs.S16384x8 .f32)
    (idx : IVec Cert.Pre_finite_inputs.S16384x8 32)
    (h : Cert.Pre_finite_inputs.fn (F := F) a0 a1 a2 a3 idx = fun _ => 1#1) : RowDistinct idx := by
  obtain ⟨-, -, hd⟩ := last_three a0 a1 a2 a3 idx h
  exact fun n a b he => distinct_read idx _ _ n a b (hd (ix3 n a b)) he

end Cert.Routed
-- ==== Proof.Claims.lean ====
/-
  The five claims. Both programs compute, over the extended reals, the routed low-rank update `G` of Proof/Spec.lean:
  the kernel's result array is `G` of the arguments wherever every index is a slot number (Proof/KernelValue.lean), and the
  reference's result term is `G` of the arguments wherever, besides, no row names a slot twice (Proof/RefValue.lean). The
  precondition gives both conditions (Proof/IndexFacts.lean). The frames are the generated ones (the reference's is its run with
  the result dropped), and the idealization rewrote nothing.
-/
import proofs.«407315_j50878182588815_3_alg».proof.Defs
import proofs.«407315_j50878182588815_3_alg».proof.Proof.Gen.Kernel.Frame
import proofs.«407315_j50878182588815_3_alg».proof.Proof.Gen.KernelIdeal.Frame
import proofs.«407315_j50878182588815_3_alg».proof.Proof.Gen.ReferenceIdeal
import proofs.«407315_j50878182588815_3_alg».proof.Proof.Gen.Pre_finite_inputs
import proofs.«407315_j50878182588815_3_alg».proof.Proof.KernelValue
import proofs.«407315_j50878182588815_3_alg».proof.Proof.RefValue
import proofs.«407315_j50878182588815_3_alg».proof.Proof.IndexFacts

noncomputable section

namespace Cert.Proof.Claims

open Idealize.ShloMosaic Idealize.ShloMosaic.TcCoe Idealize.SL.Sem Cert.Routed

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories that agree on the arguments both programs end with the result array at `G` of the arguments. -/
theorem algebraic : Cert.algebraic_KernelIdeal_ReferenceIdeal := by
  intro m ρ m' ρ' hpre hagree
  have hr : ∀ c : Dev Cert.KernelIdeal.nD, InRange (m ((c : Thread Cert.KernelIdeal.nD Cert.KernelIdeal.τ).loc Cert.KernelIdeal.main_arg4)) :=
    fun c => inRange_of_pre _ _ _ _ _ (hpre c)
  have hd : ∀ c : Dev Cert.KernelIdeal.nD, RowDistinct (m ((c : Thread Cert.KernelIdeal.nD Cert.KernelIdeal.τ).loc Cert.KernelIdeal.main_arg4)) :=
    fun c => rowDistinct_of_pre _ _ _ _ _ (hpre c)
  refine ⟨fun c => Cert.KernelIdeal.Result.spec m c, Cert.KernelIdeal.Result.run m ρ hr, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefRead.val_main_v21_eq, (hagree c).1, (hagree c).2.1, (hagree c).2.2.1, (hagree c).2.2.2.1, (hagree c).2.2.2.2]
  exact Cert.ReferenceIdeal.RefValue.reference_eq _ _ _ _ _ (hr c) (hd c)

end Cert.Proof.Claims

end
-- ==== Proof.lean ====
/-
  The certificate's claim: the kernel (a routed low-rank update fused into one launch over a 32×2 grid, its slot weights built by
  comparing an iota with the row's top-k indices and carried in a scratch across the two column tiles of a row tile) and the
  reference (project down, gather the named slots, scale, scatter into zeroed rows, project up) agree over the extended reals
  wherever every top-k index is a slot number in [0, 64) and a row's indices are pairwise distinct. The claims are proved in
  Proof/Claims.lean; here they are put behind the witnesses of the programs' stated facts.
-/
import proofs.«407315_j50878182588815_3_alg».proof.Defs
import proofs.«407315_j50878182588815_3_alg».proof.Proof.Gen.Kernel
import proofs.«407315_j50878182588815_3_alg».proof.Proof.Gen.KernelIdeal
import proofs.«407315_j50878182588815_3_alg».proof.Proof.Gen.ReferenceIdeal
import proofs.«407315_j50878182588815_3_alg».proof.Proof.Gen.Pre_finite_inputs
import proofs.«407315_j50878182588815_3_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
